-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64 : Shape := ⟨1, ![64]⟩
abbrev S1000 : Shape := ⟨1, ![1000]⟩
abbrev S30522x768 : Shape := ⟨2, ![30522, 768]⟩
abbrev S12x768x768 : Shape := ⟨3, ![12, 768, 768]⟩
abbrev S12x768 : Shape := ⟨2, ![12, 768]⟩
abbrev S_ : Shape := ⟨0, ![]⟩

class Facts : Prop where
  bcast_S_S30522x768 : S_.BroadcastsInDim S30522x768 (![] : Fin 0 → Fin S30522x768.rank)
  reducesTo_S30522x768_S_d0_1 : S30522x768.ReducesTo [0, 1] S_
  h_S_ : 0 < S_.numel
  bcast_S_S12x768x768 : S_.BroadcastsInDim S12x768x768 (![] : Fin 0 → Fin S12x768x768.rank)
  reducesTo_S12x768x768_S_d0_1_2 : S12x768x768.ReducesTo [0, 1, 2] S_
  bcast_S_S12x768 : S_.BroadcastsInDim S12x768 (![] : Fin 0 → Fin S12x768.rank)
  reducesTo_S12x768_S_d0_1 : S12x768.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S64 32) (main_arg7 : FVec F S12x768 .f32) (main_v13 : IVec S_ 1) (main_v16 : IVec S12x768x768 1) : IVec S_ 1 :=
  let main_c_5 : IVec S_ 1 := constantI S_ 1 1#1
  let main_v17 : IVec S_ 1 := (fun x v => Host.reduce IntOp.andi x v reducesTo_S12x768x768_S_d0_1_2 h_S_) main_v16 main_c_5
  let main_v18 : IVec S_ 1 := andi main_v13 main_v17
  let main_v19 : FVec F S12x768 .f32 := Host.absf main_arg7
  let main_cst_6 : FVec F S_ .f32 := constant S_ .f32 0x7F800000#32
  let main_v20 : FVec F S12x768 .f32 := broadcastInDim S12x768 ![] bcast_S_S12x768 main_cst_6
  let main_v21 : IVec S12x768 1 := cmpf .olt main_v19 main_v20
  let main_c_7 : IVec S_ 1 := constantI S_ 1 1#1
  let main_v22 : IVec S_ 1 := (fun x v => Host.reduce IntOp.andi x v reducesTo_S12x768_S_d0_1 h_S_) main_v21 main_c_7
  let main_v23 : IVec S_ 1 := andi main_v18 main_v22
  let main_c_8 : IVec S_ 32 := constantI S_ 32 0#32
  let main_v24 : IVec S64 32 := broadcastInDim S64 ![] bcast_S_S64 main_c_8
  let main_v25 : IVec S64 1 := cmpi .sge main_arg1 main_v24
  let main_c_9 : IVec S_ 32 := constantI S_ 32 12#32
  let main_v26 : IVec S64 32 := broadcastInDim S64 ![] bcast_S_S64 main_c_9
  let main_v27 : IVec S64 1 := cmpi .slt main_arg1 main_v26
  let main_v28 : IVec S64 1 := andi main_v25 main_v27
  let main_c_10 : IVec S_ 1 := constantI S_ 1 1#1
  let main_v29 : IVec S_ 1 := (fun x v => Host.reduce IntOp.andi x v reducesTo_S64_S_d0 h_S_) main_v28 main_c_10
  let main_v30 : IVec S_ 1 := andi main_v23 main_v29
  main_v30

def fn {F : FTy → Type} [FloatOps F] (main_arg0 : IVec S64x512 32) (main_arg1 : IVec S64 32) (main_arg2 : IVec S1000 32) (main_arg3 : FVec F S30522x768 .f32) (main_arg4 : FVec F S12x768x768 .f32) (main_arg5 : FVec F S12x768 .f32) (main_arg6 : FVec F S12x768x768 .f32) (main_arg7 : FVec F S12x768 .f32) : IVec S_ 1 :=
  let main_v0 : FVec F S30522x768 .f32 := Host.absf main_arg3
  let main_cst : FVec F S_ .f32 := constant S_ .f32 0x7F800000#32
  let main_v1 : FVec F S30522x768 .f32 := broadcastInDim S30522x768 ![] bcast_S_S30522x768 main_cst
  let main_v2 : IVec S30522x768 1 := cmpf .olt main_v0 main_v1
  let main_c : IVec S_ 1 := constantI S_ 1 1#1
  let main_v3 : IVec S_ 1 := (fun x v => Host.reduce IntOp.andi x v reducesTo_S30522x768_S_d0_1 h_S_) main_v2 main_c
  let main_v4 : FVec F S12x768x768 .f32 := Host.absf main_arg4
  let main_cst_0 : FVec F S_ .f32 := constant S_ .f32 0x7F800000#32
  let main_v5 : FVec F S12x768x768 .f32 := broadcastInDim S12x768x768 ![] bcast_S_S12x768x768 main_cst_0
  let main_v6 : IVec S12x768x768 1 := cmpf .olt main_v4 main_v5
  let main_c_1 : IVec S_ 1 := constantI S_ 1 1#1
  let main_v7 : IVec S_ 1 := (fun x v => Host.reduce IntOp.andi x v reducesTo_S12x768x768_S_d0_1_2 h_S_) main_v6 main_c_1
  let main_v8 : IVec S_ 1 := andi main_v3 main_v7
  let main_v9 : FVec F S12x768 .f32 := Host.absf main_arg5
  let main_cst_2 : FVec F S_ .f32 := constant S_ .f32 0x7F800000#32
  let main_v10 : FVec F S12x768 .f32 := broadcastInDim S12x768 ![] bcast_S_S12x768 main_cst_2
  let main_v11 : IVec S12x768 1 := cmpf .olt main_v9 main_v10
  let main_c_3 : IVec S_ 1 := constantI S_ 1 1#1
  let main_v12 : IVec S_ 1 := (fun x v => Host.reduce IntOp.andi x v reducesTo_S12x768_S_d0_1 h_S_) main_v11 main_c_3
  let main_v13 : IVec S_ 1 := andi main_v8 main_v12
  let main_v14 : FVec F S12x768x768 .f32 := Host.absf main_arg6
  let main_cst_4 : FVec F S_ .f32 := constant S_ .f32 0x7F800000#32
  let main_v15 : FVec F S12x768x768 .f32 := broadcastInDim S12x768x768 ![] bcast_S_S12x768x768 main_cst_4
  let main_v16 : IVec S12x768x768 1 := cmpf .olt main_v14 main_v15
  fn_part1 (F := F) main_arg1 main_arg7 main_v13 main_v16
-- ==== Kernel.lean ====
abbrev S64x512 : Shape := ⟨2, ![64, 512]⟩
abbrev S64 : Shape := ⟨1, ![64]⟩
abbrev S1000 : Shape := ⟨1, ![1000]⟩
abbrev S30522x768 : Shape := ⟨2, ![30522, 768]⟩
abbrev S12x768x768 : Shape := ⟨3, ![12, 768, 768]⟩
abbrev S12x768 : Shape := ⟨2, ![12, 768]⟩
abbrev S_ : Shape := ⟨0, ![]⟩
abbrev S64x512x1 : Shape := ⟨3, ![64, 512, 1]⟩
abbrev S64x512x768 : Shape := ⟨3, ![64, 512, 768]⟩
abbrev S32768 : Shape := ⟨1, ![32768]⟩
abbrev S32768x1 : Shape := ⟨2, ![32768, 1]⟩
abbrev S1x1000 : Shape := ⟨2, ![1, 1000]⟩
abbrev S32768x1000 : Shape := ⟨2, ![32768, 1000]⟩
abbrev S1x512x768 : Shape := ⟨3, ![1, 512, 768]⟩
abbrev S1x512x1 : Shape := ⟨3, ![1, 512, 1]⟩
abbrev S1 : Shape := ⟨1, ![1]⟩
abbrev S512x768 : Shape := ⟨2, ![512, 768]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩
abbrev S512x1 : Shape := ⟨2, ![512, 1]⟩

abbrev nBuf : Space → Nat
  | .hbm => 30
  | .vmem => 10
  | .smem => 1
  | _ => 0

abbrev bufTy : (tb : Table) → Fin (tcTables nBuf tb) → BufTy
  | .hbm, ⟨0, _⟩ => ⟨S64x512, .i32⟩
  | .hbm, ⟨1, _⟩ => ⟨S1000, .i32⟩
  | .hbm, ⟨2, _⟩ => ⟨S30522x768, .f32⟩
  | .hbm, ⟨3, _⟩ => ⟨S12x768x768, .f32⟩
  | .hbm, ⟨4, _⟩ => ⟨S12x768, .f32⟩
  | .hbm, ⟨5, _⟩ => ⟨S12x768x768, .f32⟩
  | .hbm, ⟨6, _⟩ => ⟨S12x768, .f32⟩
  | .hbm, ⟨7, _⟩ => ⟨S_, .i32⟩
  | .hbm, ⟨8, _⟩ => ⟨S64x512, .i32⟩
  | .hbm, ⟨9, _⟩ => ⟨S64x512, .i1⟩
  | .hbm, ⟨10, _⟩ => ⟨S_, .i32⟩
  | .hbm, ⟨11, _⟩ => ⟨S64x512, .i32⟩
  | .hbm, ⟨12, _⟩ => ⟨S64x512, .i32⟩
  | .hbm, ⟨13, _⟩ => ⟨S64x512, .i32⟩
  | .hbm, ⟨14, _⟩ => ⟨S64x512x1, .i32⟩
  | .hbm, ⟨15, _⟩ => ⟨S64x512x768, .f32⟩
  | .hbm, ⟨16, _⟩ => ⟨S32768, .i32⟩
  | .hbm, ⟨17, _⟩ => ⟨S32768x1, .i32⟩
  | .hbm, ⟨18, _⟩ => ⟨S1x1000, .i32⟩
  | .hbm, ⟨19, _⟩ => ⟨S32768x1000, .i32⟩
  | .hbm, ⟨20, _⟩ => ⟨S32768x1000, .i32⟩
  | .hbm, ⟨21, _⟩ => ⟨S32768x1000, .i1⟩
  | .hbm, ⟨22, _⟩ => ⟨S_, .i1⟩
  | .hbm, ⟨23, _⟩ => ⟨S32768, .i1⟩
  | .hbm, ⟨24, _⟩ => ⟨S64x512, .i1⟩
  | .hbm, ⟨25, _⟩ => ⟨S64x512, .f32⟩
  | .hbm, ⟨26, _⟩ => ⟨S64x512x1, .f32⟩
  | .hbm, ⟨27, _⟩ => ⟨S12x768x768, .bf16⟩
  | .hbm, ⟨28, _⟩ => ⟨S12x768x768, .bf16⟩
  | .hbm, ⟨29, _⟩ => ⟨S64x512x768, .f32⟩
  | .local _ .vmem, ⟨0, _⟩ => ⟨S1x512x768, .f32⟩
  | .local _ .vmem, ⟨1, _⟩ => ⟨S1x512x768, .f32⟩
  | .local _ .vmem, ⟨2, _⟩ => ⟨S1x512x1, .f32⟩
  | .local _ .vmem, ⟨3, _⟩ => ⟨S1x512x1, .f32⟩
  | .local _ .vmem, ⟨4, _⟩ => ⟨S12x768x768, .bf16⟩
  | .local _ .vmem, ⟨5, _⟩ => ⟨S12x768x768, .bf16⟩
  | .local _ .vmem, ⟨6, _⟩ => ⟨S12x768, .f32⟩
  | .local _ .vmem, ⟨7, _⟩ => ⟨S12x768, .f32⟩
  | .local _ .vmem, ⟨8, _⟩ => ⟨S1x512x768, .f32⟩
  | .local _ .vmem, ⟨9, _⟩ => ⟨S1x512x768, .f32⟩
  | .local _ .smem, ⟨0, _⟩ => ⟨S64, .i32⟩
  | _, _ => ⟨S64x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 3 → Nat :=
  let v5 : Index := Scalar.indexCast v1
  let c0_2 : Index := 0#32
  let c0_3 : Index := 0#32
  ![v5.toNat, 0, 0]

def k0_off3 (v1 : BitVec 32) : Fin 2 → Nat :=
  let v11 : Index := Scalar.indexCast v1
  let c0_6 : Index := 0#32
  ![v11.toNat, 0]

def k0_chk1 (v1 : BitVec 32) : Prop :=
  (∀ a, (k0_off2 v1) a + S1x768x768.size a ≤ S12x768x768.size a) ∧
  (∀ a, (k0_off3 v1) a + S1x768.size a ≤ S12x768.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x768x768.size a ≤ S12x768x768.size a := fun v1 k0_hw1 => k0_hw1.1
theorem k0_off3_inb : ∀ (v1 : BitVec 32) (k0_hw1 : k0_chk1 v1), ∀ a, (k0_off3 v1) a + S1x768.size a ≤ S12x768.size a := fun v1 k0_hw1 => k0_hw1.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  shapeCasts_S64x512_S32768 : S64x512.ShapeCasts S32768
  bcast_S32768_S32768x1_0 : S32768.BroadcastsInDim S32768x1 (![0] : Fin 1 → Fin S32768x1.rank)
  bcast_S1000_S1x1000_1 : S1000.BroadcastsInDim S1x1000 (![1] : Fin 1 → Fin S1x1000.rank)
  bcast_S32768x1_S32768x1000_0_1 : S32768x1.BroadcastsInDim S32768x1000 (![0, 1] : Fin 2 → Fin S32768x1000.rank)
  bcast_S1x1000_S32768x1000_0_1 : S1x1000.BroadcastsInDim S32768x1000 (![0, 1] : Fin 2 → Fin S32768x1000.rank)
  reducesTo_S32768x1000_S32768_d1 : S32768x1000.ReducesTo [1] S32768
  h_S_ : 0 < S_.numel
  shapeCasts_S32768_S64x512 : S32768.ShapeCasts S64x512
  bitsLt_bf16_f32 : FTy.bits .bf16 < FTy.bits .f32
  numel1_S1 : S1.numel = 1
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  h_S1x768x768 : 0 < S1x768x768.numel
  shapeCasts_S1x768x768_S768x768 : S1x768x768.ShapeCasts S768x768
  h_S1x768 : 0 < S1x768.numel
  shapeCasts_S1x768_S768 : S1x768.ShapeCasts S768
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S768_S1x768 : S768.ShapeCasts S1x768
  broadcasts_S1x768_S512x768 : S1x768.Broadcasts S512x768
  broadcasts_S512x1_S512x768 : S512x1.Broadcasts S512x768
  shapeCasts_S512x768_S1x512x768 : S512x768.ShapeCasts S1x512x768
  gather_S30522x768_S64x512x1_S64x512x768_2_0_n_n_0_2_1768_wf : GatherDims.WF S30522x768 S64x512x1 S64x512x768 [2] [0] [] [0] [] 2 ![1, 768]
  dot_S512x768_S768x768_S512x768_1_1_0_0_n_n_wf : DotDims.WF S512x768 S768x768 S512x768 [1] [1] [0] [0] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S64x512x768.size a
  hwx0_0 : ∀ i : grid0.Coords, EltTy.bits .f32 = 32 ∨ (Rect.block (s := S64x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S64x512x1.size a
  hwx0_1 : ∀ i : grid0.Coords, EltTy.bits .f32 = 32 ∨ (Rect.block (s := S64x512x1) S1x512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x768x768.size a ≤ S12x768x768.size a
  hwx0_2 : ∀ i : grid0.Coords, EltTy.bits .bf16 = 32 ∨ (Rect.block (s := S12x768x768) S12x768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x768x768.size a ≤ S12x768x768.size a
  hwx0_3 : ∀ i : grid0.Coords, EltTy.bits .bf16 = 32 ∨ (Rect.block (s := S12x768x768) S12x768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x768.size a ≤ S12x768.size a
  hwx0_4 : ∀ i : grid0.Coords, EltTy.bits .f32 = 32 ∨ (Rect.block (s := S12x768) S12x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x768.size a ≤ S12x768.size a
  hwx0_5 : ∀ i : grid0.Coords, EltTy.bits .f32 = 32 ∨ (Rect.block (s := S12x768) S12x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x768.size a ≤ S64x512x768.size a
  hwx0_6 : ∀ i : grid0.Coords, EltTy.bits .f32 = 32 ∨ (Rect.block (s := S64x512x768) S1x512x768.size (cc0_transform_6 i) (hinb0_6 i)).WholeWords (EltTy.packing .f32)

variable [Facts₀]

def gather_S30522x768_S64x512x1_S64x512x768_2_0_n_n_0_2_1768 : GatherDims S30522x768 S64x512x1 S64x512x768 where
  offsetDims := [2]
  collapsedSliceDims := [0]
  operandBatchingDims := []
  startIndicesBatchingDims := []
  startIndexMap := [0]
  indexVectorDim := 2
  sliceSizes := ![1, 768]
  wf := gather_S30522x768_S64x512x1_S64x512x768_2_0_n_n_0_2_1768_wf
def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf

abbrev spec0_0 : Pipeline.WinSpec sig grid0.rank :=
  Pipeline.WinSpec.ofSpec (Memref.whole main_v6) S1x512x768.size reads0_0 false false 2 stage0_0 sem0_0 nbuf0_0 hstage0_0

abbrev spec0_1 : Pipeline.WinSpec sig grid0.rank :=
  Pipeline.WinSpec.ofSpec (Memref.whole main_v10) S1x512x1.size reads0_1 false false 2 stage0_1 sem0_1 nbuf0_1 hstage0_1

abbrev spec0_2 : Pipeline.WinSpec sig grid0.rank :=
  Pipeline.WinSpec.ofSpec (Memref.whole main_v11) S12x768x768.size reads0_2 false true 1 stage0_2 sem0_2 nbuf0_2 hstage0_2

abbrev spec0_3 : Pipeline.WinSpec sig grid0.rank :=
  Pipeline.WinSpec.ofSpec (Memref.whole main_v12) S12x768x768.size reads0_3 false true 1 stage0_3 sem0_3 nbuf0_3 hstage0_3

abbrev spec0_4 : Pipeline.WinSpec sig grid0.rank :=
  Pipeline.WinSpec.ofSpec (Memref.whole main_arg5) S12x768.size reads0_4 false true 1 stage0_4 sem0_4 nbuf0_4 hstage0_4

abbrev spec0_5 : Pipeline.WinSpec sig grid0.rank :=
  Pipeline.WinSpec.ofSpec (Memref.whole main_arg7) S12x768.size reads0_5 false true 1 stage0_5 sem0_5 nbuf0_5 hstage0_5

abbrev spec0_6 : Pipeline.WinSpec sig grid0.rank :=
  Pipeline.WinSpec.ofSpec (Memref.whole main_v13) S1x512x768.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S64x512 : Shape := ⟨2, ![64, 512]⟩
abbrev S64 : Shape := ⟨1, ![64]⟩
abbrev S1000 : Shape := ⟨1, ![1000]⟩
abbrev S30522x768 : Shape := ⟨2, ![30522, 768]⟩
abbrev S12x768x768 : Shape := ⟨3, ![12, 768, 768]⟩
abbrev S12x768 : Shape := ⟨2, ![12, 768]⟩
abbrev S_ : Shape := ⟨0, ![]⟩
abbrev S64x512x1 : Shape := ⟨3, ![64, 512, 1]⟩
abbrev S64x512x768 : Shape := ⟨3, ![64, 512, 768]⟩
abbrev S64x1 : Shape := ⟨2, ![64, 1]⟩
abbrev S64x768x768 : Shape := ⟨3, ![64, 768, 768]⟩
abbrev S64x768 : Shape := ⟨2, ![64, 768]⟩
abbrev S64x1x768 : Shape := ⟨3, ![64, 1, 768]⟩
abbrev S32768 : Shape := ⟨1, ![32768]⟩
abbrev S32768x1 : Shape := ⟨2, ![32768, 1]⟩
abbrev S1x1000 : Shape := ⟨2, ![1, 1000]⟩
abbrev S32768x1000 : Shape := ⟨2, ![32768, 1000]⟩

abbrev nBuf : Space → Nat
  | .hbm => 76
  | .vmem => 0
  | .smem => 0
  | _ => 0

abbrev bufTy : (tb : Table) → Fin (tcTables nBuf tb) → BufTy
  | .hbm, ⟨0, _⟩ => ⟨S64x512, .i32⟩
  | .hbm, ⟨1, _⟩ => ⟨S64, .i32⟩
  | .hbm, ⟨2, _⟩ => ⟨S1000, .i32⟩
  | .hbm, ⟨3, _⟩ => ⟨S30522x768, .f32⟩
  | .hbm, ⟨4, _⟩ => ⟨S12x768x768, .f32⟩
  | .hbm, ⟨5, _⟩ => ⟨S12x768, .f32⟩
  | .hbm, ⟨6, _⟩ => ⟨S12x768x768, .f32⟩
  | .hbm, ⟨7, _⟩ => ⟨S12x768, .f32⟩
  | .hbm, ⟨8, _⟩ => ⟨S_, .i32⟩
  | .hbm, ⟨9, _⟩ => ⟨S64x512, .i32⟩
  | .hbm, ⟨10, _⟩ => ⟨S64x512, .i1⟩
  | .hbm, ⟨11, _⟩ => ⟨S_, .i32⟩
  | .hbm, ⟨12, _⟩ => ⟨S64x512, .i32⟩
  | .hbm, ⟨13, _⟩ => ⟨S64x512, .i32⟩
  | .hbm, ⟨14, _⟩ => ⟨S64x512, .i32⟩
  | .hbm, ⟨15, _⟩ => ⟨S64x512x1, .i32⟩
  | .hbm, ⟨16, _⟩ => ⟨S64x512x768, .f32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64x1, .i32⟩
  | .hbm, ⟨25, _⟩ => ⟨S64x768x768, .f32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S64x1, .i32⟩
  | .hbm, ⟨34, _⟩ => ⟨S64x768x768, .f32⟩
  | .hbm, ⟨35, _⟩ => ⟨S64x512x768, .f32⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64, .i32⟩
  | .hbm, ⟨43, _⟩ => ⟨S64x1, .i32⟩
  | .hbm, ⟨44, _⟩ => ⟨S64x768, .f32⟩
  | .hbm, ⟨45, _⟩ => ⟨S64x1x768, .f32⟩
  | .hbm, ⟨46, _⟩ => ⟨S64x512x768, .f32⟩
  | .hbm, ⟨47, _⟩ => ⟨S64x512x768, .f32⟩
  | .hbm, ⟨48, _⟩ => ⟨S64x512x768, .f32⟩
  | .hbm, ⟨49, _⟩ => ⟨S64x512x768, .f32⟩
  | .hbm, ⟨50, _⟩ => ⟨S_, .i32⟩
  | .hbm, ⟨51, _⟩ => ⟨S64, .i32⟩
  | .hbm, ⟨52, _⟩ => ⟨S64, .i1⟩
  | .hbm, ⟨53, _⟩ => ⟨S_, .i32⟩
  | .hbm, ⟨54, _⟩ => ⟨S64, .i32⟩
  | .hbm, ⟨55, _⟩ => ⟨S64, .i32⟩
  | .hbm, ⟨56, _⟩ => ⟨S64, .i32⟩
  | .hbm, ⟨57, _⟩ => ⟨S64x1, .i32⟩
  | .hbm, ⟨58, _⟩ => ⟨S64x768, .f32⟩
  | .hbm, ⟨59, _⟩ => ⟨S64x1x768, .f32⟩
  | .hbm, ⟨60, _⟩ => ⟨S64x512x768, .f32⟩
  | .hbm, ⟨61, _⟩ => ⟨S64x512x768, .f32⟩
  | .hbm, ⟨62, _⟩ => ⟨S32768, .i32⟩
  | .hbm, ⟨63, _⟩ => ⟨S32768x1, .i32⟩
  | .hbm, ⟨64, _⟩ => ⟨S1x1000, .i32⟩
  | .hbm, ⟨65, _⟩ => ⟨S32768x1000, .i32⟩
  | .hbm, ⟨66, _⟩ => ⟨S32768x1000, .i32⟩
  | .hbm, ⟨67, _⟩ => ⟨S32768x1000, .i1⟩
  | .hbm, ⟨68, _⟩ => ⟨S_, .i1⟩
  | .hbm, ⟨69, _⟩ => ⟨S32768, .i1⟩
  | .hbm, ⟨70, _⟩ => ⟨S64x512, .i1⟩
  | .hbm, ⟨71, _⟩ => ⟨S64x512, .f32⟩
  | .hbm, ⟨72, _⟩ => ⟨S64x512x1, .f32⟩
  | .hbm, ⟨73, _⟩ => ⟨S64x512x768, .f32⟩
  | .hbm, ⟨74, _⟩ => ⟨S64x512x768, .f32⟩
  | .hbm, ⟨75, _⟩ => ⟨S64x512x768, .f32⟩
  | _, _ => ⟨S64x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_c : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S_S64 : S_.BroadcastsInDim S64 (![] : Fin 0 → Fin S64.rank)
  bcast_S64_S64x1_0 : S64.BroadcastsInDim S64x1 (![0] : Fin 1 → Fin S64x1.rank)
  bcast_S64x768_S64x1x768_0_2 : S64x768.BroadcastsInDim S64x1x768 (![0, 2] : Fin 2 → Fin S64x1x768.rank)
  bcast_S64x1x768_S64x512x768_0_1_2 : S64x1x768.BroadcastsInDim S64x512x768 (![0, 1, 2] : Fin 3 → Fin S64x512x768.rank)
  shapeCasts_S64x512_S32768 : S64x512.ShapeCasts S32768
  bcast_S32768_S32768x1_0 : S32768.BroadcastsInDim S32768x1 (![0] : Fin 1 → Fin S32768x1.rank)
  bcast_S1000_S1x1000_1 : S1000.BroadcastsInDim S1x1000 (![1] : Fin 1 → Fin S1x1000.rank)
  bcast_S32768x1_S32768x1000_0_1 : S32768x1.BroadcastsInDim S32768x1000 (![0, 1] : Fin 2 → Fin S32768x1000.rank)
  bcast_S1x1000_S32768x1000_0_1 : S1x1000.BroadcastsInDim S32768x1000 (![0, 1] : Fin 2 → Fin S32768x1000.rank)
  reducesTo_S32768x1000_S32768_d1 : S32768x1000.ReducesTo [1] S32768
  h_S_ : 0 < S_.numel
  shapeCasts_S32768_S64x512 : S32768.ShapeCasts S64x512
  bcast_S64x512x1_S64x512x768_0_1_2 : S64x512x1.BroadcastsInDim S64x512x768 (![0, 1, 2] : Fin 3 → Fin S64x512x768.rank)
  gather_S30522x768_S64x512x1_S64x512x768_2_0_n_n_0_2_1768_wf : GatherDims.WF S30522x768 S64x512x1 S64x512x768 [2] [0] [] [0] [] 2 ![1, 768]
  gather_S12x768x768_S64x1_S64x768x768_12_0_n_n_0_1_1768768_wf : GatherDims.WF S12x768x768 S64x1 S64x768x768 [1, 2] [0] [] [0] [] 1 ![1, 768, 768]
  dot_S64x512x768_S64x768x768_S64x512x768_2_2_1_1_0_0_wf : DotDims.WF S64x512x768 S64x768x768 S64x512x768 [2] [2] [1] [1] [0] [0]
  gather_S12x768_S64x1_S64x768_1_0_n_n_0_1_1768_wf : GatherDims.WF S12x768 S64x1 S64x768 [1] [0] [] [0] [] 1 ![1, 768]

variable [Facts₀]

def gather_S30522x768_S64x512x1_S64x512x768_2_0_n_n_0_2_1768 : GatherDims S30522x768 S64x512x1 S64x512x768 where
  offsetDims := [2]
  collapsedSliceDims := [0]
  operandBatchingDims := []
  startIndicesBatchingDims := []
  startIndexMap := [0]
  indexVectorDim := 2
  sliceSizes := ![1, 768]
  wf := gather_S30522x768_S64x512x1_S64x512x768_2_0_n_n_0_2_1768_wf
def gather_S12x768x768_S64x1_S64x768x768_12_0_n_n_0_1_1768768 : GatherDims S12x768x768 S64x1 S64x768x768 where
  offsetDims := [1, 2]
  collapsedSliceDims := [0]
  operandBatchingDims := []
  startIndicesBatchingDims := []
  startIndexMap := [0]
  indexVectorDim := 1
  sliceSizes := ![1, 768, 768]
  wf := gather_S12x768x768_S64x1_S64x768x768_12_0_n_n_0_1_1768768_wf
def dot_S64x512x768_S64x768x768_S64x512x768_2_2_1_1_0_0 : DotDims S64x512x768 S64x768x768 S64x512x768 where
  lhsContracting := [2]
  rhsContracting := [2]
  lhsNonContracting := [1]
  rhsNonContracting := [1]
  lhsBatch := [0]
  rhsBatch := [0]
  wf := dot_S64x512x768_S64x768x768_S64x512x768_2_2_1_1_0_0_wf
def gather_S12x768_S64x1_S64x768_1_0_n_n_0_1_1768 : GatherDims S12x768 S64x1 S64x768 where
  offsetDims := [1]
  collapsedSliceDims := [0]
  operandBatchingDims := []
  startIndicesBatchingDims := []
  startIndexMap := [0]
  indexVectorDim := 1
  sliceSizes := ![1, 768]
  wf := gather_S12x768_S64x1_S64x768_1_0_n_n_0_1_1768_wf

class Facts : Prop extends Facts₀ where

variable [Facts]
-- ==== Proof.TimeRange.lean ====
/-
  The precondition read back at the expert selector. The precondition's last conjunct is
  `all((timediff >= 0) & (timediff < 12))`: a conjunction of sixty-four pairs of signed comparisons, folded by `and`.
  When the whole predicate is 1, each pair holds, so each `timediff[i]` read as a signed integer lies in [0, 12);
  a 32-bit word that is non-negative when read signed has the same value read unsigned, hence
  `timediff[i]` is below 12 as a natural number. That number is the expert both programs use for sample `i`.
-/
import proofs.«412413_j51745765982421_2_alg».proof.Pre_finite_inputs
import Idealize.ShloMosaic.Lib.ReduceAll
import Idealize.ShloMosaic.Lib.Affine

noncomputable section

namespace Cert.TimeRange

open Idealize.ShloMosaic Cert.Pre_finite_inputs

/-- The rank-0 shape has exactly one index. -/
instance scalarIdxSubsingleton : Subsingleton S_.Idx := ⟨fun a b => funext fun d => d.elim0⟩

/-- A 32-bit word in [0, 12) as a signed integer is below 12 as a natural number. -/
theorem toNat_lt_twelve (w : BitVec 32) (h0 : IntOp.cmpi .sge w 0#32 = 1#1) (h1 : IntOp.cmpi .slt w 12#32 = 1#1) :
    w.toNat < 12 := by
  rw [IntOp.cmpi_sge] at h0
  rw [IntOp.cmpi_slt] at h1
  have z : (0#32 : BitVec 32).toInt = 0 := by decide
  have t : (12#32 : BitVec 32).toInt = 12 := by decide
  rw [z] at h0
  rw [t] at h1
  have hlt := w.isLt
  have hc := BitVec.toInt_eq_toNat_cond w
  split at hc <;> omega

/-- A word below 12 is not negative when read signed. -/
theorem not_neg (w : BitVec 32) (h : w.toNat < 12) : ¬ IntOp.cmpi .slt w 0#32 = 1#1 := by
  rw [IntOp.cmpi_slt]
  have z : (0#32 : BitVec 32).toInt = 0 := by decide
  rw [z]
  have hc := BitVec.toInt_eq_toNat_cond w
  split at hc <;> omega

/-- Index normalisation (add the axis length to a negative index) leaves a word below 12 alone. -/
theorem normalise (w : BitVec 32) (h : w.toNat < 12) :
    Scalar.select (IntOp.cmpi .slt w 0#32) (IntOp.addi w 12#32) w = w := if_neg (not_neg w h)

/-- Read signed and clamped into [0, 11], a word below 12 is its own unsigned value. -/
theorem clamp (w : BitVec 32) (h : w.toNat < 12) : min w.toInt.toNat (12 - 1) = w.toNat := by
  have hc := BitVec.toInt_eq_toNat_cond w
  split at hc <;> omega

variable [Facts]

/-- Under the precondition every entry of `timediff` is below 12 (unsigned), at any float instance. -/
theorem expert_lt {F : FTy → Type} [FloatOps F] (a0 : IVec S64x512 32) (a1 : IVec S64 32) (a2 : IVec S1000 32)
    (a3 : FVec F S30522x768 .f32) (a4 : FVec F S12x768x768 .f32) (a5 : FVec F S12x768 .f32)
    (a6 : FVec F S12x768x768 .f32) (a7 : FVec F S12x768 .f32)
    (h : fn (F := F) a0 a1 a2 a3 a4 a5 a6 a7 = fun _ => 1#1) (i : S64.Idx) : (a1 i).toNat < 12 := by
  have e := congrFun h (fun a => a.elim0)
  unfold fn fn_part1 at e
  dsimp only at e
  change IntOp.andi _ _ = 1#1 at e
  have e1 := (IntOp.andi_eq_one.1 e).2
  have e2 := Host.reduce_andi_all _ _ _ _ _ e1 i
  change IntOp.andi (IntOp.cmpi .sge (a1 i) 0#32) (IntOp.cmpi .slt (a1 i) 12#32) = 1#1 at e2
  have e3 := IntOp.andi_eq_one.1 e2
  exact toNat_lt_twelve _ e3.1 e3.2

end Cert.TimeRange

end
-- ==== Proof.AdmitKernel.lean ====
/-
  The side conditions of `Kernel`'s frame, from the precondition. The kernel body reads the word `timediff[b]` at grid
  point `b` and uses it as the leading offset of four loads: a [1, 768, 768] slice of each [12, 768, 768] weight block
  and a [1, 768] row of each [12, 768] bias block. Those slices lie inside their arrays exactly when the word, read as a
  natural number, is below 12, and the precondition says so of every entry of `timediff` (Proof/TimeRange.lean). No index
  map of the launch reads the prefetched table, so the launch's own side condition is empty.
-/
import proofs.«412413_j51745765982421_2_alg».proof.Defs
import proofs.«412413_j51745765982421_2_alg».proof.Proof.Gen.Kernel.Frame
import proofs.«412413_j51745765982421_2_alg».proof.Proof.Gen.Pre_finite_inputs
import proofs.«412413_j51745765982421_2_alg».proof.Proof.TimeRange

set_option maxRecDepth 16384

noncomputable section

namespace Cert.Kernel.Admit

open Cert.Kernel Cert.Kernel.Gen
open Idealize.ShloMosaic Idealize.ShloMosaic.TcCoe Idealize.SL.Sem

variable (m : (ℓ : Loc nD τ sig) → Buf (Elt Bits) ℓ)

/-- The launch's side condition on the table is empty: no window's index map reads it. -/
theorem ok : Ok m := trivial

/-- A selector word below 12 names a slice inside each weight block and a row inside each bias block. -/
theorem chk (w : BitVec 32) (hw : w.toNat < 12) : k0_chk1 w := by
  have e : (Scalar.indexCast w).toNat = w.toNat := rfl
  refine ⟨fun a => ?_, fun a => ?_⟩
  · fin_cases a <;> simp [k0_off2, e, S1x768x768, S12x768x768] <;> omega
  · fin_cases a <;> simp [k0_off3, e, S1x768, S12x768] <;> omega

/-- The table the region reads is `timediff` as launched (no host operation before the region writes it), so under
    the precondition each of its entries is below 12. -/
theorem table_lt (h : Cert.Pre_Kernel m) (i : S64.Idx) : ((tbl m 0 : S64.Idx → BitVec 32) i).toNat < 12 := by
  have e : (tbl m 0 : S64.Idx → BitVec 32) = m (((0 : Dev nD) : Thread nD τ).loc main_arg1) := V_main_arg1 m 0
  rw [e]
  exact Cert.TimeRange.expert_lt _ _ _ _ _ _ _ _ (h 0) i

/-- A bound that holds at every entry of a table holds of whatever entry a read through the whole table returns. -/
theorem read_lt (f : TbBuf0 (F := Bits) (0 : Dev nD) tbM0_0) (hf : ∀ i : S64.Idx, ((f : S64.Idx → BitVec 32) i).toNat < 12)
    (r : LoadRect S64) (x : r.shape.Idx) : ((tbM0_0.view.readAt (Elt Bits) r f x : BitVec 32)).toNat < 12 :=
  hf _

/-- The body's assumed side condition holds at every grid point. -/
theorem hyps (h : Cert.Pre_Kernel m) (hO : Ok m) : Hyps m hO := fun c t => by
  obtain rfl : c = 0 := Subsingleton.elim _ _
  exact chk _ (read_lt (tbl m 0) (table_lt m h) _ _)

end Cert.Kernel.Admit

end
-- ==== Proof.AdmitKernelIdeal.lean ====
/-
  The side conditions of `KernelIdeal`'s frame, from the precondition. The kernel body reads the word `timediff[b]` at grid
  point `b` and uses it as the leading offset of four loads: a [1, 768, 768] slice of each [12, 768, 768] weight block
  and a [1, 768] row of each [12, 768] bias block. Those slices lie inside their arrays exactly when the word, read as a
  natural number, is below 12, and the precondition says so of every entry of `timediff` (Proof/TimeRange.lean). No index
  map of the launch reads the prefetched table, so the launch's own side condition is empty.
-/
import proofs.«412413_j51745765982421_2_alg».proof.Defs
import proofs.«412413_j51745765982421_2_alg».proof.Proof.Gen.KernelIdeal.Frame
import proofs.«412413_j51745765982421_2_alg».proof.Proof.Gen.Pre_finite_inputs
import proofs.«412413_j51745765982421_2_alg».proof.Proof.TimeRange

set_option maxRecDepth 16384

noncomputable section

namespace Cert.KernelIdeal.Admit

open Cert.KernelIdeal Cert.KernelIdeal.Gen
open Idealize.ShloMosaic Idealize.ShloMosaic.TcCoe Idealize.SL.Sem

variable (m : (ℓ : Loc nD τ sig) → Buf (Elt Ideal) ℓ)

/-- The launch's side condition on the table is empty: no window's index map reads it. -/
theorem ok : Ok m := trivial

/-- A selector word below 12 names a slice inside each weight block and a row inside each bias block. -/
theorem chk (w : BitVec 32) (hw : w.toNat < 12) : k0_chk1 w := by
  have e : (Scalar.indexCast w).toNat = w.toNat := rfl
  refine ⟨fun a => ?_, fun a => ?_⟩
  · fin_cases a <;> simp [k0_off2, e, S1x768x768, S12x768x768] <;> omega
  · fin_cases a <;> simp [k0_off3, e, S1x768, S12x768] <;> omega

/-- The table the region reads is `timediff` as launched (no host operation before the region writes it), so under
    the precondition each of its entries is below 12. -/
theorem table_lt (h : Cert.Pre_KernelIdeal m) (i : S64.Idx) : ((tbl m 0 : S64.Idx → BitVec 32) i).toNat < 12 := by
  have e : (tbl m 0 : S64.Idx → BitVec 32) = m (((0 : Dev nD) : Thread nD τ).loc main_arg1) := V_main_arg1 m 0
  rw [e]
  exact Cert.TimeRange.expert_lt _ _ _ _ _ _ _ _ (h 0) i

/-- A bound that holds at every entry of a table holds of whatever entry a read through the whole table returns. -/
theorem read_lt (f : TbBuf0 (F := Ideal) (0 : Dev nD) tbM0_0) (hf : ∀ i : S64.Idx, ((f : S64.Idx → BitVec 32) i).toNat < 12)
    (r : LoadRect S64) (x : r.shape.Idx) : ((tbM0_0.view.readAt (Elt Ideal) r f x : BitVec 32)).toNat < 12 :=
  hf _

/-- The body's assumed side condition holds at every grid point. -/
theorem hyps (h : Cert.Pre_KernelIdeal m) (hO : Ok m) : Hyps m hO := fun c t => by
  obtain rfl : c = 0 := Subsingleton.elim _ _
  exact chk _ (read_lt (tbl m 0) (table_lt m h) _ _)

end Cert.KernelIdeal.Admit

end
-- ==== Proof.KernelDot.lean ====
/-
  The kernel body's matrix product at the ideal instance, read at an entry.

  Both products of the body contract the LAST axis of the left operand with the LAST axis of the right one (the weights
  are stored [out, in]): for a [512, 768] left operand `a` and a [768, 768] right operand `b`, into a zero accumulator,
  entry (l, k) of the product is the sum over d of a(l, d) * b(k, d). Over the extended reals the product is by definition
  the accumulator plus the sum over the contraction index; the contraction index has one axis, so the sum is re-indexed
  by its one coordinate, and the operand indices are read off the dimension numbers axis by axis.
-/
import proofs.«412413_j51745765982421_2_alg».proof.Proof.Gen.KernelIdeal
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- Left operand, axis 0 (kept): the result's row. -/
theorem lhs_axis0 (i : S512x768.Idx) (q : dot_S512x768_S768x768_S512x768_1_1_0_0_n_n.contr.Idx) :
    (dot_S512x768_S768x768_S512x768_1_1_0_0_n_n.lhsIdx i q 0).val = (i 0).val := by
  unfold DotDims.lhsIdx
  rw [dif_neg (show ¬(0 : Fin S512x768.rank) ∈ dot_S512x768_S768x768_S512x768_1_1_0_0_n_n.lhsBatch by decide), dif_pos (show (0 : Fin S512x768.rank) ∈ dot_S512x768_S768x768_S512x768_1_1_0_0_n_n.lhsNonContracting by decide)]
  rfl
/-- Left operand, axis 1 (contracted): the contraction coordinate. -/
theorem lhs_axis1 (i : S512x768.Idx) (q : dot_S512x768_S768x768_S512x768_1_1_0_0_n_n.contr.Idx) :
    (dot_S512x768_S768x768_S512x768_1_1_0_0_n_n.lhsIdx i q 1).val = (q ⟨0, by decide⟩).val :=
  dot_S512x768_S768x768_S512x768_1_1_0_0_n_n.lhsIdx_val_of_single rfl i q
/-- Right operand, axis 0 (kept): the result's column. -/
theorem rhs_axis0 (i : S512x768.Idx) (q : dot_S512x768_S768x768_S512x768_1_1_0_0_n_n.contr.Idx) :
    (dot_S512x768_S768x768_S512x768_1_1_0_0_n_n.rhsIdx i q 0).val = (i 1).val := by
  unfold DotDims.rhsIdx
  rw [dif_neg (show ¬(0 : Fin S768x768.rank) ∈ dot_S512x768_S768x768_S512x768_1_1_0_0_n_n.rhsBatch by decide), dif_pos (show (0 : Fin S768x768.rank) ∈ dot_S512x768_S768x768_S512x768_1_1_0_0_n_n.rhsNonContracting by decide)]
  rfl
/-- Right operand, axis 1 (contracted): the contraction coordinate. -/
theorem rhs_axis1 (i : S512x768.Idx) (q : dot_S512x768_S768x768_S512x768_1_1_0_0_n_n.contr.Idx) :
    (dot_S512x768_S768x768_S512x768_1_1_0_0_n_n.rhsIdx i q 1).val = (q ⟨0, by decide⟩).val :=
  dot_S512x768_S768x768_S512x768_1_1_0_0_n_n.rhsIdx_val_of_single rfl i q

/-- Entry (l, k) of the product into a zero accumulator is the sum over d of a(l, d) * b(k, d). -/
theorem matmul_entry {φ₁ φ₂ : FTy} (a : FVec Ideal S512x768 φ₁) (b : FVec Ideal S768x768 φ₂) (l : Fin 512) (k : Fin 768) :
    matmul dot_S512x768_S768x768_S512x768_1_1_0_0_n_n none a b (constant S512x768 .f32 0x00000000#32) (ix2 l k)
      = ∑ d : Fin 768, a (ix2 l d) * b (ix2 k d) := by
  show FloatOps.matmul dot_S512x768_S768x768_S512x768_1_1_0_0_n_n none a b (constant S512x768 .f32 0x00000000#32) (ix2 l k) = _
  rw [Ideal.matmul_constant_zero_apply, ← Equiv.sum_comp (contrEquiv1 dot_S512x768_S768x768_S512x768_1_1_0_0_n_n 768 rfl rfl).symm]
  refine Finset.sum_congr rfl fun d _ => ?_
  have hk := contrEquiv1_symm_val dot_S512x768_S768x768_S512x768_1_1_0_0_n_n 768 rfl rfl d
  have el : dot_S512x768_S768x768_S512x768_1_1_0_0_n_n.lhsIdx (ix2 l k) ((contrEquiv1 dot_S512x768_S768x768_S512x768_1_1_0_0_n_n 768 rfl rfl).symm d) = ix2 l d := funext fun ax => Fin.ext (by
    match ax with
    | ⟨0, _⟩ => exact lhs_axis0 _ _
    | ⟨1, _⟩ => exact (lhs_axis1 _ _).trans hk)
  have er : dot_S512x768_S768x768_S512x768_1_1_0_0_n_n.rhsIdx (ix2 l k) ((contrEquiv1 dot_S512x768_S768x768_S512x768_1_1_0_0_n_n 768 rfl rfl).symm d) = ix2 k d := funext fun ax => Fin.ext (by
    match ax with
    | ⟨0, _⟩ => exact rhs_axis0 _ _
    | ⟨1, _⟩ => exact (rhs_axis1 _ _).trans hk)
  rw [el, er]

end Cert.KernelIdeal.Body

end
-- ==== Proof.LibLayout.lean ====
/-
  General lemma: a COLUMN broadcast along the last axis, read at an index.

  A `[a, 1]` array broadcast to `[a, b]` repeats each row's single entry across the row: the result at `(p, c)` is the
  operand at `(p, 0)`. (The library has the companion for one row broadcast over many, `[1, b]` to `[a, b]`.)
-/
import Idealize.ShloMosaic.Lib.Pipeline.Value
import Idealize.ShloMosaic.Lib.ValueIdx

noncomputable section

namespace Idealize.ShloMosaic.ColumnBroadcast

open Idealize.ShloMosaic Idealize.ShloMosaic.ValueIdx

variable {α : Type}

/-- An `[a, 1]` array broadcast to `[a, b]` reads, at `(p, c)`, row `p`'s one entry. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnBroadcast

end
-- ==== Proof.Spec.lean ====
/-
  The function both programs compute, as one formula over whole arrays.

  X : [64, 512, 768] are the embedded tokens of 64 samples, M : [64, 512, 1] a 0/1 mask column per sample, W1, W2 :
  [12, 768, 768] the weights of twelve two-layer experts (stored [out, in]), B1, B2 : [12, 768] their biases, and e b the
  expert sample b is routed to. The result adds to each token its expert's masked offset:

      out(b, l, j) = X(b, l, j) + ( sum_k tanh( sum_d X(b, l, d) * W1(e b, k, d) + B1(e b, k) ) * W2(e b, j, k) + B2(e b, j) ) * M(b, l, 0).

  All arithmetic is over the extended reals; nothing here needs the entries to be finite, since the two programs form
  the same sums of the same products.
-/
import Idealize.ShloMosaic.Lib.ValueIdx
import Idealize.ShloMosaic.PureOps.Ideal

noncomputable section

namespace Cert.Mlp

open Idealize.ShloMosaic Idealize.ShloMosaic.ValueIdx

abbrev SAct : Shape := ⟨3, ![64, 512, 768]⟩
abbrev SMask : Shape := ⟨3, ![64, 512, 1]⟩
abbrev SWeight : Shape := ⟨3, ![12, 768, 768]⟩
abbrev SBias : Shape := ⟨2, ![12, 768]⟩

/-- The hidden activation of token (b, l) at hidden unit k under expert `e`. -/
def hiddenAt (X : SAct.Idx → EReal) (W1 : SWeight.Idx → EReal) (B1 : SBias.Idx → EReal) (e : Fin 12)
    (b : Fin 64) (l : Fin 512) (k : Fin 768) : EReal :=
  Ideal.tanh ((∑ d : Fin 768, X (ix3 b l d) * W1 (ix3 e k d)) + B1 (ix2 e k))

/-- The result at (b, l, j) under expert `e`. -/
def mlpAt (X : SAct.Idx → EReal) (M : SMask.Idx → EReal) (W1 W2 : SWeight.Idx → EReal) (B1 B2 : SBias.Idx → EReal)
    (e : Fin 12) (b : Fin 64) (l : Fin 512) (j : Fin 768) : EReal :=
  X (ix3 b l j) + ((∑ k : Fin 768, hiddenAt X W1 B1 e b l k * W2 (ix3 e j k)) + B2 (ix2 e j)) * M (ix3 b l (0 : Fin 1))

/-- The whole result array, each sample under its own expert. -/
def mlpOut (X : SAct.Idx → EReal) (M : SMask.Idx → EReal) (W1 W2 : SWeight.Idx → EReal) (B1 B2 : SBias.Idx → EReal)
    (e : Fin 64 → Fin 12) : SAct.Idx → EReal :=
  fun i => mlpAt X M W1 W2 B1 B2 (e ⟨(i 0).val, (i 0).isLt⟩) ⟨(i 0).val, (i 0).isLt⟩ ⟨(i 1).val, (i 1).isLt⟩ ⟨(i 2).val, (i 2).isLt⟩

/-- At an index given by coordinates the result is `mlpAt` at those coordinates. -/
theorem mlpOut_apply (X : SAct.Idx → EReal) (M : SMask.Idx → EReal) (W1 W2 : SWeight.Idx → EReal) (B1 B2 : SBias.Idx → EReal)
    (e : Fin 64 → Fin 12) (b : Fin 64) (l : Fin 512) (j : Fin 768) :
    mlpOut X M W1 W2 B1 B2 e (ix3 b l j) = mlpAt X M W1 W2 B1 B2 (e b) b l j := rfl

end Cert.Mlp

end
-- ==== Proof.KernelPayload.lean ====
/-
  The value the kernel body stores, entry by entry, over the extended reals.

  At one grid point the body holds one sample's activations x : [1, 512, 768], one expert's weights w1, w2 : [1, 768, 768]
  (stored [out, in]) and biases c1, c2 : [1, 768], and the sample's mask column mk : [1, 512, 1]. It stores

      out(0, l, j) = x(0, l, j) + ( sum_k tanh( sum_d x(0, l, d) * w1(0, k, d) + c1(0, k) ) * w2(0, j, k) + c2(0, j) ) * mk(0, l, 0).

  Changes of float format are the identity on extended reals, a product into a zero accumulator is the plain sum, and the
  shape casts and broadcasts only move indices: dropping or adding a leading unit axis, repeating the bias row down the
  rows, repeating the mask column across the columns.
-/
import proofs.«412413_j51745765982421_2_alg».proof.Proof.Gen.KernelIdeal.Skeleton
import proofs.«412413_j51745765982421_2_alg».proof.Proof.KernelDot
import proofs.«412413_j51745765982421_2_alg».proof.Proof.LibLayout
import proofs.«412413_j51745765982421_2_alg».proof.Proof.Spec
import Idealize.ShloMosaic.Lib.ValueLayout
import Idealize.ShloMosaic.Lib.Pipeline.Value

set_option maxRecDepth 16384

noncomputable section

namespace Cert.KernelIdeal.Body

open Cert.KernelIdeal Cert.KernelIdeal.Gen Idealize.ShloMosaic Idealize.ShloMosaic.ValueIdx
open Idealize.ShloMosaic.ColumnBroadcast

/-- One entry of one sample's output, from the sample's blocks. -/
def entry (x : S1x512x768.Idx → EReal) (w1 w2 : S1x768x768.Idx → EReal) (c1 c2 : S1x768.Idx → EReal)
    (mk : S1x512x1.Idx → EReal) (l : Fin 512) (j : Fin 768) : EReal :=
  x (ix3 (0 : Fin 1) l j)
    + ((∑ k : Fin 768, Ideal.tanh ((∑ d : Fin 768, x (ix3 (0 : Fin 1) l d) * w1 (ix3 (0 : Fin 1) k d)) + c1 (ix2 (0 : Fin 1) k))
          * w2 (ix3 (0 : Fin 1) j k))
        + c2 (ix2 (0 : Fin 1) j)) * mk (ix3 (0 : Fin 1) l (0 : Fin 1))

/-- The hyperbolic tangent of a vector reads entrywise. -/
theorem tanh_entry {s : Shape} {φ : FTy} (a : FVec Ideal s φ) (i : s.Idx) : tanh a i = Ideal.tanh (a i) := rfl

/-- The stored value at entry (z, l, j) is `entry` of the loaded blocks. -/
theorem pay_entry (v2 : Vec Ideal S1x512x768 .f32) (v6 v9 : Vec Ideal S1x768x768 .bf16) (v12 v15 : Vec Ideal S1x768 .f32)
    (v17 : Vec Ideal S1x512x1 .f32) (z : Fin 1) (l : Fin 512) (j : Fin 768) :
    k0_pay1 (F := Ideal) v2 v6 v9 v12 v15 v17 (ix3 z l j) = entry v2 v6 v9 v12 v15 v17 l j := by
  unfold k0_pay1 entry
  refine (shapeCast_ab_1ab_apply _ _ z l j).trans ?_
  simp only [addf_apply, mulf_apply, tanh_entry, truncf_apply, matmul_entry, shapeCast_1ab_ab_apply,
    shapeCast_a_1a_apply, shapeCast_1a_a_apply, broadcastTo_1b_ab_apply, broadcastTo_a1_ab_apply]

/-- ONE SAMPLE'S BLOCK IS ITS SLICE OF THE ROUTED FORMULA, over any arrays: if the activation and mask blocks read
    sample `tb` of X and M, and the weight slices and bias rows read expert `e` of W1, W2, B1, B2, then the stored
    value at (z, l, j) is the routed formula at (tb, l, j) under expert `e`. -/
theorem block_formula (X : Cert.Mlp.SAct.Idx → EReal) (M : Cert.Mlp.SMask.Idx → EReal)
    (W1 W2 : Cert.Mlp.SWeight.Idx → EReal) (B1 B2 : Cert.Mlp.SBias.Idx → EReal)
    (xb : Vec Ideal S1x512x768 .f32) (w1s w2s : Vec Ideal S1x768x768 .bf16) (b1r b2r : Vec Ideal S1x768 .f32)
    (mb : Vec Ideal S1x512x1 .f32) (tb : Fin 64) (e : Fin 12)
    (hx : ∀ (z : Fin 1) (l : Fin 512) (j : Fin 768), xb (ix3 z l j) = X (ix3 tb l j))
    (hm : ∀ (z : Fin 1) (l : Fin 512) (u : Fin 1), mb (ix3 z l u) = M (ix3 tb l u))
    (hw1 : ∀ (z : Fin 1) (k d : Fin 768), w1s (ix3 z k d) = W1 (ix3 e k d))
    (hw2 : ∀ (z : Fin 1) (k d : Fin 768), w2s (ix3 z k d) = W2 (ix3 e k d))
    (hb1 : ∀ (z : Fin 1) (k : Fin 768), b1r (ix2 z k) = B1 (ix2 e k))
    (hb2 : ∀ (z : Fin 1) (k : Fin 768), b2r (ix2 z k) = B2 (ix2 e k))
    (z : Fin 1) (l : Fin 512) (j : Fin 768) :
    k0_pay1 (F := Ideal) xb w1s w2s b1r b2r mb (ix3 z l j) = Cert.Mlp.mlpAt X M W1 W2 B1 B2 e tb l j := by
  rw [pay_entry]
  unfold entry Cert.Mlp.mlpAt Cert.Mlp.hiddenAt
  simp only [hx, hm, hw1, hw2, hb1, hb2]

end Cert.KernelIdeal.Body

end
-- ==== Proof.KernelValue.lean ====
/-
  What the idealized kernel leaves in its output block at one grid point, and hence in the whole result array.

  At grid point b the body reads the selector word w = timediff[b], loads sample b's activation block and mask column
  whole, and loads expert w's slice of each resident weight block ([1, 768, 768] at leading offset w) and row of each
  bias block ([1, 768] at leading offset w). Its one store covers the output block, so the block ends holding the
  stored value: the payload of those loads.
-/
import proofs.«412413_j51745765982421_2_alg».proof.Proof.Gen.KernelIdeal.Frame
import proofs.«412413_j51745765982421_2_alg».proof.Proof.KernelPayload
import proofs.«412413_j51745765982421_2_alg».proof.Proof.Spec
import Idealize.ShloMosaic.Lib.Pipeline.Value
import Idealize.ShloMosaic.Lib.Tactic

set_option maxRecDepth 16384

noncomputable section

namespace Cert.KernelIdeal.Out

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)

variable {F : FTy → Type} [FloatOps F]

theorem zero3 : (![0, 0, 0] : Fin 3 → Nat) = fun _ => 0 := funext fun a => by fin_cases a <;> rfl

/-- The selector word the body reads at grid coordinates `i`: entry `i` of the prefetched table. -/
abbrev word (c : Dev nD) (i : grid0.Coords) (xt0 : TbBuf0 (F := F) c tbM0_0) : BitVec 32 :=
  tbM0_0.view.readAt (Elt F) (Rect.unit (s := S64) (k0_off1 i) S1.size (k0_off1_inb i)).toLoadRect xt0 (Shape.Idx.first (numel1_S1.symm ▸ Nat.one_pos))

/-- The output block after the body: the payload of the activation block, the selected expert's slices of the two
    weight blocks and rows of the two bias blocks, and the mask column. -/
theorem stored (c : Dev nD) (i : grid0.Coords) (arg2 : Memref sig .tc .vmem S1x512x768 .f32) (harg2 : arg2.IsWhole) (arg3 : Memref sig .tc .vmem S1x512x1 .f32) (harg3 : arg3.IsWhole) (arg4 : Memref sig .tc .vmem S12x768x768 .bf16) (harg4 : arg4.IsWhole) (arg5 : Memref sig .tc .vmem S12x768x768 .bf16) (harg5 : arg5.IsWhole) (arg6 : Memref sig .tc .vmem S12x768 .f32) (harg6 : arg6.IsWhole) (arg7 : Memref sig .tc .vmem S12x768 .f32) (harg7 : arg7.IsWhole) (arg8 : Memref sig .tc .vmem S1x512x768 .f32) (harg8 : arg8.IsWhole)
    (x0 : Vec F S1x512x768 .f32) (x1 : Vec F S1x512x1 .f32) (x2 : Vec F S12x768x768 .bf16) (x3 : Vec F S12x768x768 .bf16) (x4 : Vec F S12x768 .f32) (x5 : Vec F S12x768 .f32) (xt0 : TbBuf0 (F := F) c tbM0_0) (k0_hw1 : k0_chk1 (tbM0_0.view.readAt (Elt F) (Rect.unit (s := S64) (k0_off1 i) S1.size (k0_off1_inb i)).toLoadRect xt0 (Shape.Idx.first (numel1_S1.symm ▸ Nat.one_pos)))) :
    out0_A_6 c i arg2 harg2 arg3 harg3 arg4 harg4 arg5 harg5 arg6 harg6 arg7 harg7 arg8 harg8 x0 x1 x2 x3 x4 x5 xt0 k0_hw1
      = k0_pay1 x0
          (View.ld x2 (Rect.unit (s := S12x768x768) (k0_off2 (word c i xt0)) S1x768x768.size (k0_off2_inb _ k0_hw1)))
          (View.ld x3 (Rect.unit (s := S12x768x768) (k0_off2 (word c i xt0)) S1x768x768.size (k0_off2_inb _ k0_hw1)))
          (View.ld x4 (Rect.unit (s := S12x768) (k0_off3 (word c i xt0)) S1x768.size (k0_off3_inb _ k0_hw1)))
          (View.ld x5 (Rect.unit (s := S12x768) (k0_off3 (word c i xt0)) S1x768.size (k0_off3_inb _ k0_hw1)))
          x1 := by
  unfold out0_A_6
  rw [View.read_writes_eq_canon _ _ _ (cover0_A_6 c i arg2 harg2 arg3 harg3 arg4 harg4 arg5 harg5 arg6 harg6 arg7 harg7 arg8 harg8 x0 x1 x2 x3 x4 x5 xt0 k0_hw1)]
  unfold kernelRun0_A
  dsimp only
  sl_unfold_words
  rw [View.canon_unit_zero zero3]
  simp only [View.readAt_eq_ld, harg2.read_unread, harg3.read_unread, harg4.read_unread, harg5.read_unread,
    harg6.read_unread, harg7.read_unread, View.ld_unit_zero (S := S1x512x768) zero3, View.ld_unit_zero (S := S1x512x1) zero3]
  rfl

/-! ## The blocks at a grid point, and the arrays they are cut from -/

section Blocks

variable (m : (ℓ : Loc nD τ sig) → Buf (Elt Ideal) ℓ) (hO : Ok m)

/-- The arrays as the region finds them: gathered activations, mask column, the two weight blocks in the narrower
    float format, the two bias blocks. -/
abbrev actArr (c : Dev nD) : Vec Ideal S64x512x768 .f32 := V m c main_v6
abbrev maskArr (c : Dev nD) : Vec Ideal S64x512x1 .f32 := V m c main_v10
abbrev w1Arr (c : Dev nD) : Vec Ideal S12x768x768 .bf16 := V m c main_v11
abbrev w2Arr (c : Dev nD) : Vec Ideal S12x768x768 .bf16 := V m c main_v12
abbrev b1Arr (c : Dev nD) : Vec Ideal S12x768 .f32 := V m c main_arg5
abbrev b2Arr (c : Dev nD) : Vec Ideal S12x768 .f32 := V m c main_arg7

/-- The input blocks staged at point `t`, at their literal types. -/
abbrev actBlk (c : Dev nD) (t : Fin (cfgM m hO).N) : Vec Ideal S1x512x768 .f32 := iblk m hO c 0 t
abbrev maskBlk (c : Dev nD) (t : Fin (cfgM m hO).N) : Vec Ideal S1x512x1 .f32 := iblk m hO c 1 t
abbrev w1Blk (c : Dev nD) (t : Fin (cfgM m hO).N) : Vec Ideal S12x768x768 .bf16 := iblk m hO c 2 t
abbrev w2Blk (c : Dev nD) (t : Fin (cfgM m hO).N) : Vec Ideal S12x768x768 .bf16 := iblk m hO c 3 t
abbrev b1Blk (c : Dev nD) (t : Fin (cfgM m hO).N) : Vec Ideal S12x768 .f32 := iblk m hO c 4 t
abbrev b2Blk (c : Dev nD) (t : Fin (cfgM m hO).N) : Vec Ideal S12x768 .f32 := iblk m hO c 5 t

/-- There are 64 grid points, one per sample. -/
theorem point_lt (t : Fin (cfgM m hO).N) : t.val < 64 := by
  have h : (cfgM m hO).N = 64 := N_0
  have := t.isLt
  omega

/-- The printed index maps, decided over the grid: the activation, mask and output windows sit at block (t, 0, 0);
    the weight and bias windows stay at block 0. -/
theorem index_act (t : Fin (cfgM m hO).N) :
    ((cfgM m hO).win 0).index t (0 : Fin 3) = t.val ∧ ((cfgM m hO).win 0).index t (1 : Fin 3) = 0 ∧ ((cfgM m hO).win 0).index t (2 : Fin 3) = 0 :=
  (by decide +kernel : ∀ t : Fin grid0.N, cc0_transform_0 (grid0.coords t) (0 : Fin 3) = t.val
    ∧ cc0_transform_0 (grid0.coords t) (1 : Fin 3) = 0 ∧ cc0_transform_0 (grid0.coords t) (2 : Fin 3) = 0) t
theorem index_mask (t : Fin (cfgM m hO).N) :
    ((cfgM m hO).win 1).index t (0 : Fin 3) = t.val ∧ ((cfgM m hO).win 1).index t (1 : Fin 3) = 0 ∧ ((cfgM m hO).win 1).index t (2 : Fin 3) = 0 :=
  (by decide +kernel : ∀ t : Fin grid0.N, cc0_transform_1 (grid0.coords t) (0 : Fin 3) = t.val
    ∧ cc0_transform_1 (grid0.coords t) (1 : Fin 3) = 0 ∧ cc0_transform_1 (grid0.coords t) (2 : Fin 3) = 0) t
theorem index_out (t : Fin (cfgM m hO).N) :
    ((cfgM m hO).win 6).index t (0 : Fin 3) = t.val ∧ ((cfgM m hO).win 6).index t (1 : Fin 3) = 0 ∧ ((cfgM m hO).win 6).index t (2 : Fin 3) = 0 :=
  (by decide +kernel : ∀ t : Fin grid0.N, cc0_transform_6 (grid0.coords t) (0 : Fin 3) = t.val
    ∧ cc0_transform_6 (grid0.coords t) (1 : Fin 3) = 0 ∧ cc0_transform_6 (grid0.coords t) (2 : Fin 3) = 0) t

/-- Sample `t`'s activation block reads the activations at (t, l, j). -/
theorem actBlk_apply (c : Dev nD) (t : Fin (cfgM m hO).N) (z : Fin 1) (l : Fin 512) (j : Fin 768) :
    actBlk m hO c t (ix3 z l j) = actArr m c (ix3 (⟨t.val, point_lt m hO t⟩ : Fin 64) l j) := by
  show V m c main_v6 ((((cfgM m hO).win 0).blk t).view.emb (ix3 z l j)) = V m c main_v6 (ix3 (⟨t.val, point_lt m hO t⟩ : Fin 64) l j)
  obtain ⟨e0, e1, e2⟩ := index_act m hO t
  refine congrArg (V m c main_v6) (funext fun a => Fin.ext ?_)
  match a with
  | ⟨0, _⟩ => show ((cfgM m hO).win 0).index t (0 : Fin 3) * 1 + 1 * z.val = t.val; have := z.isLt; omega
  | ⟨1, _⟩ => show ((cfgM m hO).win 0).index t (1 : Fin 3) * 512 + 1 * l.val = l.val; omega
  | ⟨2, _⟩ => show ((cfgM m hO).win 0).index t (2 : Fin 3) * 768 + 1 * j.val = j.val; omega

end Blocks

section MoreBlocks

variable (m : (ℓ : Loc nD τ sig) → Buf (Elt Ideal) ℓ) (hO : Ok m)

/-- Sample `t`'s mask block reads the mask column at (t, l, 0). -/
theorem maskBlk_apply (c : Dev nD) (t : Fin (cfgM m hO).N) (z : Fin 1) (l : Fin 512) (u : Fin 1) :
    maskBlk m hO c t (ix3 z l u) = maskArr m c (ix3 (⟨t.val, point_lt m hO t⟩ : Fin 64) l u) := by
  show V m c main_v10 ((((cfgM m hO).win 1).blk t).view.emb (ix3 z l u)) = V m c main_v10 (ix3 (⟨t.val, point_lt m hO t⟩ : Fin 64) l u)
  obtain ⟨e0, e1, e2⟩ := index_mask m hO t
  refine congrArg (V m c main_v10) (funext fun a => Fin.ext ?_)
  match a with
  | ⟨0, _⟩ => show ((cfgM m hO).win 1).index t (0 : Fin 3) * 1 + 1 * z.val = t.val; have := z.isLt; omega
  | ⟨1, _⟩ => show ((cfgM m hO).win 1).index t (1 : Fin 3) * 512 + 1 * l.val = l.val; omega
  | ⟨2, _⟩ => show ((cfgM m hO).win 1).index t (2 : Fin 3) * 1 + 1 * u.val = u.val; omega

/-- The resident windows never move: their one block is the whole array. -/
theorem index_w1 (t : Fin (cfgM m hO).N) :
    ((cfgM m hO).win 2).index t (0 : Fin 3) = 0 ∧ ((cfgM m hO).win 2).index t (1 : Fin 3) = 0 ∧ ((cfgM m hO).win 2).index t (2 : Fin 3) = 0 :=
  (by decide +kernel : ∀ t : Fin grid0.N, cc0_transform_2 (grid0.coords t) (0 : Fin 3) = 0 ∧ cc0_transform_2 (grid0.coords t) (1 : Fin 3) = 0 ∧ cc0_transform_2 (grid0.coords t) (2 : Fin 3) = 0) t
theorem index_w2 (t : Fin (cfgM m hO).N) :
    ((cfgM m hO).win 3).index t (0 : Fin 3) = 0 ∧ ((cfgM m hO).win 3).index t (1 : Fin 3) = 0 ∧ ((cfgM m hO).win 3).index t (2 : Fin 3) = 0 :=
  (by decide +kernel : ∀ t : Fin grid0.N, cc0_transform_3 (grid0.coords t) (0 : Fin 3) = 0 ∧ cc0_transform_3 (grid0.coords t) (1 : Fin 3) = 0 ∧ cc0_transform_3 (grid0.coords t) (2 : Fin 3) = 0) t
theorem index_b1 (t : Fin (cfgM m hO).N) :
    ((cfgM m hO).win 4).index t (0 : Fin 2) = 0 ∧ ((cfgM m hO).win 4).index t (1 : Fin 2) = 0 :=
  (by decide +kernel : ∀ t : Fin grid0.N, cc0_transform_4 (grid0.coords t) (0 : Fin 2) = 0 ∧ cc0_transform_4 (grid0.coords t) (1 : Fin 2) = 0) t
theorem index_b2 (t : Fin (cfgM m hO).N) :
    ((cfgM m hO).win 5).index t (0 : Fin 2) = 0 ∧ ((cfgM m hO).win 5).index t (1 : Fin 2) = 0 :=
  (by decide +kernel : ∀ t : Fin grid0.N, cc0_transform_5 (grid0.coords t) (0 : Fin 2) = 0 ∧ cc0_transform_5 (grid0.coords t) (1 : Fin 2) = 0) t

theorem w1Blk_apply (c : Dev nD) (t : Fin (cfgM m hO).N) (e : Fin 12) (k d : Fin 768) :
    w1Blk m hO c t (ix3 e k d) = w1Arr m c (ix3 e k d) := by
  show V m c main_v11 ((((cfgM m hO).win 2).blk t).view.emb (ix3 e k d)) = V m c main_v11 (ix3 e k d)
  obtain ⟨e0, e1, e2⟩ := index_w1 m hO t
  refine congrArg (V m c main_v11) (funext fun a => Fin.ext ?_)
  match a with
  | ⟨0, _⟩ => show ((cfgM m hO).win 2).index t (0 : Fin 3) * 12 + 1 * e.val = e.val; omega
  | ⟨1, _⟩ => show ((cfgM m hO).win 2).index t (1 : Fin 3) * 768 + 1 * k.val = k.val; omega
  | ⟨2, _⟩ => show ((cfgM m hO).win 2).index t (2 : Fin 3) * 768 + 1 * d.val = d.val; omega

theorem w2Blk_apply (c : Dev nD) (t : Fin (cfgM m hO).N) (e : Fin 12) (k d : Fin 768) :
    w2Blk m hO c t (ix3 e k d) = w2Arr m c (ix3 e k d) := by
  show V m c main_v12 ((((cfgM m hO).win 3).blk t).view.emb (ix3 e k d)) = V m c main_v12 (ix3 e k d)
  obtain ⟨e0, e1, e2⟩ := index_w2 m hO t
  refine congrArg (V m c main_v12) (funext fun a => Fin.ext ?_)
  match a with
  | ⟨0, _⟩ => show ((cfgM m hO).win 3).index t (0 : Fin 3) * 12 + 1 * e.val = e.val; omega
  | ⟨1, _⟩ => show ((cfgM m hO).win 3).index t (1 : Fin 3) * 768 + 1 * k.val = k.val; omega
  | ⟨2, _⟩ => show ((cfgM m hO).win 3).index t (2 : Fin 3) * 768 + 1 * d.val = d.val; omega

theorem b1Blk_apply (c : Dev nD) (t : Fin (cfgM m hO).N) (e : Fin 12) (k : Fin 768) :
    b1Blk m hO c t (ix2 e k) = b1Arr m c (ix2 e k) := by
  show V m c main_arg5 ((((cfgM m hO).win 4).blk t).view.emb (ix2 e k)) = V m c main_arg5 (ix2 e k)
  obtain ⟨e0, e1⟩ := index_b1 m hO t
  refine congrArg (V m c main_arg5) (funext fun a => Fin.ext ?_)
  match a with
  | ⟨0, _⟩ => show ((cfgM m hO).win 4).index t (0 : Fin 2) * 12 + 1 * e.val = e.val; omega
  | ⟨1, _⟩ => show ((cfgM m hO).win 4).index t (1 : Fin 2) * 768 + 1 * k.val = k.val; omega

theorem b2Blk_apply (c : Dev nD) (t : Fin (cfgM m hO).N) (e : Fin 12) (k : Fin 768) :
    b2Blk m hO c t (ix2 e k) = b2Arr m c (ix2 e k) := by
  show V m c main_arg7 ((((cfgM m hO).win 5).blk t).view.emb (ix2 e k)) = V m c main_arg7 (ix2 e k)
  obtain ⟨e0, e1⟩ := index_b2 m hO t
  refine congrArg (V m c main_arg7) (funext fun a => Fin.ext ?_)
  match a with
  | ⟨0, _⟩ => show ((cfgM m hO).win 5).index t (0 : Fin 2) * 12 + 1 * e.val = e.val; omega
  | ⟨1, _⟩ => show ((cfgM m hO).win 5).index t (1 : Fin 2) * 768 + 1 * k.val = k.val; omega

end MoreBlocks

/-! ## The selected expert's slice and row, read at an index -/

/-- A [1, 768, 768] load at leading offset `w` of a [12, 768, 768] block reads slice `w` of it. -/
theorem ld_slice (W : Vec Ideal S12x768x768 .bf16) (w : BitVec 32)
    (inb : ∀ a, k0_off2 w a + S1x768x768.size a ≤ S12x768x768.size a) (hw : w.toNat < 12) (z : Fin 1) (k d : Fin 768) :
    View.ld W (Rect.unit (s := S12x768x768) (k0_off2 w) S1x768x768.size inb) (ix3 z k d) = W (ix3 (⟨w.toNat, hw⟩ : Fin 12) k d) := by
  show W _ = W _
  refine congrArg W (funext fun a => Fin.ext ?_)
  match a with
  | ⟨0, _⟩ => show k0_off2 w (0 : Fin 3) + 1 * z.val = w.toNat; have : k0_off2 w (0 : Fin 3) = w.toNat := rfl; have := z.isLt; omega
  | ⟨1, _⟩ => show k0_off2 w (1 : Fin 3) + 1 * k.val = k.val; have : k0_off2 w (1 : Fin 3) = 0 := rfl; omega
  | ⟨2, _⟩ => show k0_off2 w (2 : Fin 3) + 1 * d.val = d.val; have : k0_off2 w (2 : Fin 3) = 0 := rfl; omega

/-- A [1, 768] load at leading offset `w` of a [12, 768] block reads row `w` of it. -/
theorem ld_row (B : Vec Ideal S12x768 .f32) (w : BitVec 32)
    (inb : ∀ a, k0_off3 w a + S1x768.size a ≤ S12x768.size a) (hw : w.toNat < 12) (z : Fin 1) (k : Fin 768) :
    View.ld B (Rect.unit (s := S12x768) (k0_off3 w) S1x768.size inb) (ix2 z k) = B (ix2 (⟨w.toNat, hw⟩ : Fin 12) k) := by
  show B _ = B _
  refine congrArg B (funext fun a => Fin.ext ?_)
  match a with
  | ⟨0, _⟩ => show k0_off3 w (0 : Fin 2) + 1 * z.val = w.toNat; have : k0_off3 w (0 : Fin 2) = w.toNat := rfl; have := z.isLt; omega
  | ⟨1, _⟩ => show k0_off3 w (1 : Fin 2) + 1 * k.val = k.val; have : k0_off3 w (1 : Fin 2) = 0 := rfl; omega

/-! ## One sample's block is its slice of the routed formula -/

section Routed

variable (m : (ℓ : Loc nD τ sig) → Buf (Elt Ideal) ℓ) (hO : Ok m)
variable (he : ∀ i : S64.Idx, ((tbl m 0 : S64.Idx → BitVec 32) i).toNat < 12)

/-- The expert sample `b` is routed to: entry `b` of the prefetched table. -/
def sel (b : Fin 64) : Fin 12 := ⟨((tbl m 0 : S64.Idx → BitVec 32) (ix1 b)).toNat, he _⟩

/-- The whole result: the routed formula of the arrays the region finds. -/
def result (c : Dev nD) : Vec Ideal S64x512x768 .f32 :=
  Cert.Mlp.mlpOut (actArr m c) (maskArr m c) (w1Arr m c) (w2Arr m c) (b1Arr m c) (b2Arr m c) (sel m he)

/-- At point `t`, with the selector word `w` equal to the table's entry `t`, the payload of the staged blocks at
    (z, l, j) is the routed formula at (t, l, j). -/
theorem block_value (c : Dev nD) (t : Fin (cfgM m hO).N) (w : BitVec 32)
    (hw : w = (tbl m 0 : S64.Idx → BitVec 32) (ix1 (⟨t.val, point_lt m hO t⟩ : Fin 64)))
    (inb2 : ∀ a, k0_off2 w a + S1x768x768.size a ≤ S12x768x768.size a)
    (inb3 : ∀ a, k0_off3 w a + S1x768.size a ≤ S12x768.size a)
    (z : Fin 1) (l : Fin 512) (j : Fin 768) :
    k0_pay1 (F := Ideal) (actBlk m hO c t)
        (View.ld (w1Blk m hO c t) (Rect.unit (s := S12x768x768) (k0_off2 w) S1x768x768.size inb2))
        (View.ld (w2Blk m hO c t) (Rect.unit (s := S12x768x768) (k0_off2 w) S1x768x768.size inb2))
        (View.ld (b1Blk m hO c t) (Rect.unit (s := S12x768) (k0_off3 w) S1x768.size inb3))
        (View.ld (b2Blk m hO c t) (Rect.unit (s := S12x768) (k0_off3 w) S1x768.size inb3))
        (maskBlk m hO c t) (ix3 z l j)
      = result m he c (ix3 (⟨t.val, point_lt m hO t⟩ : Fin 64) l j) := by
  subst hw
  have hlt := he (ix1 (⟨t.val, point_lt m hO t⟩ : Fin 64))
  unfold result
  rw [Cert.Mlp.mlpOut_apply]
  exact Cert.KernelIdeal.Body.block_formula (actArr m c) (maskArr m c) (w1Arr m c) (w2Arr m c) (b1Arr m c) (b2Arr m c)
    (actBlk m hO c t)
    (View.ld (w1Blk m hO c t) (Rect.unit (s := S12x768x768) (k0_off2 _) S1x768x768.size inb2))
    (View.ld (w2Blk m hO c t) (Rect.unit (s := S12x768x768) (k0_off2 _) S1x768x768.size inb2))
    (View.ld (b1Blk m hO c t) (Rect.unit (s := S12x768) (k0_off3 _) S1x768.size inb3))
    (View.ld (b2Blk m hO c t) (Rect.unit (s := S12x768) (k0_off3 _) S1x768.size inb3))
    (maskBlk m hO c t) ⟨t.val, point_lt m hO t⟩ (sel m he ⟨t.val, point_lt m hO t⟩)
    (fun z l j => actBlk_apply m hO c t z l j)
    (fun z l u => maskBlk_apply m hO c t z l u)
    (fun z k d => (ld_slice (w1Blk m hO c t) _ inb2 hlt z k d).trans (w1Blk_apply m hO c t _ k d))
    (fun z k d => (ld_slice (w2Blk m hO c t) _ inb2 hlt z k d).trans (w2Blk_apply m hO c t _ k d))
    (fun z k => (ld_row (b1Blk m hO c t) _ inb3 hlt z k).trans (b1Blk_apply m hO c t _ k))
    (fun z k => (ld_row (b2Blk m hO c t) _ inb3 hlt z k).trans (b2Blk_apply m hO c t _ k))
    z l j

end Routed

/-! ## From the blocks to the result array, and the run -/

section Final

variable (m : (ℓ : Loc nD τ sig) → Buf (Elt Ideal) ℓ) (ρ : Dev nD → PrngReg) (hO : Ok m) (hH : Hyps m hO)
variable (he : ∀ i : S64.Idx, ((tbl m 0 : S64.Idx → BitVec 32) i).toNat < 12)

/-- The table offset the body computes at point `t` is `t`. -/
theorem off_point : ∀ t : Fin grid0.N, k0_off1 (grid0.coords t) (0 : Fin 1) = t.val := by decide +kernel

/-- The word the body reads at point `t` is entry `t` of the table. -/
theorem word_eq (c : Dev nD) (t : Fin (cfgM m hO).N) :
    word c (grid0.coords t) (tbl m 0) = (tbl m 0 : S64.Idx → BitVec 32) (ix1 (⟨t.val, point_lt m hO t⟩ : Fin 64)) := by
  show (tbl m 0 : S64.Idx → BitVec 32) _ = (tbl m 0 : S64.Idx → BitVec 32) _
  refine congrArg (tbl m 0 : S64.Idx → BitVec 32) (funext fun a => Fin.ext ?_)
  match a with
  | ⟨0, _⟩ =>
    show k0_off1 (grid0.coords t) (0 : Fin 1) + 1 * (Shape.Idx.first (numel1_S1.symm ▸ Nat.one_pos) (0 : Fin 1) : Fin (S1.size 0)).val = t.val
    have h0 : (Shape.Idx.first (numel1_S1.symm ▸ Nat.one_pos) (0 : Fin 1) : Fin (S1.size 0)).val = 0 := by
      have := (Shape.Idx.first (numel1_S1.symm ▸ Nat.one_pos) (0 : Fin 1) : Fin (S1.size 0)).isLt
      have e : S1.size (0 : Fin 1) = 1 := by decide
      omega
    rw [h0, off_point t]
    omega

include hH in
/-- WHAT POINT `t` WRITES BACK is block `t` of the routed formula of the arrays as the region finds them. -/
theorem flushed_eq (c : Dev nD) (t : Fin (cfgM m hO).N) :
    (dats m hO hH 0 c).flushed 6 t = (((cfgM m hO).win 6).blk t).view.read (Elt Ideal) (result m he c) := by
  show ((cfgM m hO).win 6).cut (grid0.coords t) ((dats m hO hH 0 c).after 6 t) = _
  rw [after0_6]
  unfold outsAt0
  rw [stored c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t) (iblk m hO c 3 t) (iblk m hO c 4 t) (iblk m hO c 5 t) (tbl m 0) (Hyps.c0 hH c t)]
  refine funext fun (y : S1x512x768.Idx) => ?_
  obtain ⟨z, l, j, rfl⟩ : ∃ (z : Fin 1) (l : Fin 512) (j : Fin 768), y = ix3 z l j := ⟨y 0, y 1, y 2, eq_ix3 y⟩
  have key := block_value m hO he c t (word c (grid0.coords t) (tbl m 0)) (word_eq m hO c t)
    (k0_off2_inb _ (Hyps.c0 hH c t)) (k0_off3_inb _ (Hyps.c0 hH c t)) z l j
  refine key.trans ?_
  show result m he c (ix3 (⟨t.val, point_lt m hO t⟩ : Fin 64) l j) = result m he c ((((cfgM m hO).win 6).blk t).view.emb (ix3 z l j))
  obtain ⟨e0, e1, e2⟩ := index_out m hO t
  refine congrArg (result m he c) (funext fun a => Fin.ext ?_)
  match a with
  | ⟨0, _⟩ => show t.val = ((cfgM m hO).win 6).index t (0 : Fin 3) * 1 + 1 * z.val; have := z.isLt; omega
  | ⟨1, _⟩ => show l.val = ((cfgM m hO).win 6).index t (1 : Fin 3) * 512 + 1 * l.val; omega
  | ⟨2, _⟩ => show j.val = ((cfgM m hO).win 6).index t (2 : Fin 3) * 768 + 1 * j.val; omega

/-- Every index of the result array lies in the block of the point its leading coordinate names. -/
theorem covered (i : S64x512x768.Idx) :
    ∃ t : Fin (cfgM m hO).N, ((cfgM m hO).win 6).flush t = true ∧ i ∈ (((cfgM m hO).win 6).blk t).view.set := by
  have hN : (cfgM m hO).N = 64 := N_0
  have hi0 : (i 0).val < 64 := (i 0).isLt
  have hi1 : (i 1).val < 512 := (i 1).isLt
  have hi2 : (i 2).val < 768 := (i 2).isLt
  have ht : (i 0).val < (cfgM m hO).N := Nat.lt_of_lt_of_eq hi0 hN.symm
  have e0 : ((cfgM m hO).win 6).index ⟨(i 0).val, ht⟩ (0 : Fin 3) = (i 0).val := (index_out m hO ⟨(i 0).val, ht⟩).1
  have e1 : ((cfgM m hO).win 6).index ⟨(i 0).val, ht⟩ (1 : Fin 3) = 0 := (index_out m hO ⟨(i 0).val, ht⟩).2.1
  have e2 : ((cfgM m hO).win 6).index ⟨(i 0).val, ht⟩ (2 : Fin 3) = 0 := (index_out m hO ⟨(i 0).val, ht⟩).2.2
  refine ⟨⟨(i 0).val, ht⟩, flush0_6 (adm m hO) _, ?_⟩
  have hemb : i = (((cfgM m hO).win 6).blk ⟨(i 0).val, ht⟩).view.emb
      (ix3 (0 : Fin 1) (⟨(i 1).val, hi1⟩ : Fin 512) (⟨(i 2).val, hi2⟩ : Fin 768)) := by
    refine funext fun a => Fin.ext ?_
    match a with
    | ⟨0, _⟩ => show (i 0).val = ((cfgM m hO).win 6).index ⟨(i 0).val, ht⟩ (0 : Fin 3) * 1 + 1 * 0; omega
    | ⟨1, _⟩ => show (i 1).val = ((cfgM m hO).win 6).index ⟨(i 0).val, ht⟩ (1 : Fin 3) * 512 + 1 * (i 1).val; omega
    | ⟨2, _⟩ => show (i 2).val = ((cfgM m hO).win 6).index ⟨(i 0).val, ht⟩ (2 : Fin 3) * 768 + 1 * (i 2).val; omega
  have hmem := (((cfgM m hO).win 6).blk ⟨(i 0).val, ht⟩).view.emb_mem_set
    (ix3 (0 : Fin 1) (⟨(i 1).val, hi1⟩ : Fin 512) (⟨(i 2).val, hi2⟩ : Fin 768))
  rw [← hemb] at hmem
  exact hmem

include hH in
/-- THE RESULT ARRAY after the run is the routed formula of the arrays as the region finds them. -/
theorem final (c : Dev nD) : (dats m hO hH 0 c).arrAt 6 (cfgM m hO).N = result m he c :=
  (dats m hO hH 0 c).arrAt_eq_of_cover 6 (result m he c) (fun t _ => flushed_eq m hO hH he c t) (fun i => covered m hO i)

include hH in
/-- The frame run re-posted: the gathered activations, the result array at the routed formula, the arguments kept. -/
theorem run : θ_run defs (onTc (τ := τ) (main (F := Ideal))) ⟨m, fun _ => 0, ρ⟩ fun r => ∀ c : Dev nD,
      r.2.mem ((c.tc : Thread nD τ).loc main_v6) = actArr m c
      ∧ r.2.mem ((c.tc : Thread nD τ).loc main_v13) = result m he c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 0).trans (((dats m hO hH 0 c).arrAt_in 0 rfl _).trans (A_eq m hO hH c 0)),
      ((h c).1 6).trans (final m hO hH he c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).1 4).trans (((dats m hO hH 0 c).arrAt_in 4 rfl _).trans ((A_eq m hO hH c 4).trans (V_main_arg5 m c))),
      ((h c).2 main_arg6 (by decide : main_arg6 ∈ Pipeline.restRefs sig spec0)).trans (V_main_arg6 m c),
      ((h c).1 5).trans (((dats m hO hH 0 c).arrAt_in 5 rfl _).trans ((A_eq m hO hH c 5).trans (V_main_arg7 m c)))⟩)
    (run_main m ρ hO hH)

end Final

end Cert.KernelIdeal.Out

end
-- ==== Proof.LibGather.lean ====
/-
  General lemmas: `stablehlo.gather` of WHOLE ROWS of an array along its leading axis, read at an index.

  `x[idx]` for an operand `x : [N, A, B]` (or `[N, A]`) and an integer vector `idx : [R]` lowers to a gather whose start
  indices are `idx` viewed `[R, 1]`, with the leading operand axis collapsed (slice size 1 there) and the other axes
  taken whole as offset axes. Its result element `(r, p, q)` is the operand's at `(clamp idx[r, 0], p, q)`: the start
  index is read as a signed integer, negative values become 0 (`Int.toNat`), and it is clamped to `N - 1` so that the
  one-row slice fits; on the offset axes the start is 0 and the result's own coordinate is the offset.
  The operand index is, axis by axis, start + batching coordinate + offset coordinate; there is no batching axis.
-/
import Idealize.ShloMosaic.Lib.ValueIdx

noncomputable section

namespace Idealize.ShloMosaic.RowGather

open Idealize.ShloMosaic Idealize.ShloMosaic.ValueIdx

variable {α : Type}

/-! ## Rank-3 operand -/

/-- The dimension numbers of a whole-row gather from `[N, A, B]` at `[R, 1]` start indices into `[R, A, B]`. -/
abbrev dims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

section Rank3
variable {N A B R w : Nat}
  (wf : GatherDims.WF ⟨3, ![N, A, B]⟩ ⟨2, ![R, 1]⟩ ⟨3, ![R, A, B]⟩ [1, 2] [0] [] [0] [] 1 ![1, A, B])
  (idx : IVec ⟨2, ![R, 1]⟩ w) (r : Fin R) (p : Fin A) (q : Fin B)

/-- Leading axis: the clamped start index, no offset. -/
theorem coord3_0 : (dims3 N A B R wf).start (ix3 r p q) idx 0 + (dims3 N A B R wf).batchCoord (ix3 r p q) 0
      + (dims3 N A B R wf).offCoord (ix3 r p q) 0 = min (idx (ix2 r (0 : Fin 1))).toInt.toNat (N - 1) := by
  have hm : (0 : Fin 3) ∈ (dims3 N A B R wf).startIndexMap := List.mem_singleton.mpr rfl
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos hm]
  have hsi : (dims3 N A B R wf).siIdx (ix3 r p q) ⟨List.idxOf (0 : Fin 3) (dims3 N A B R wf).startIndexMap,
      List.idxOf_lt_length_iff.2 hm⟩ = ix2 r (0 : Fin 1) := by
    funext b; refine Fin.ext ?_
    match b with
    | ⟨0, _⟩ => rfl
    | ⟨1, _⟩ => rfl
  rw [hsi]
  rfl

/-- Middle axis: start 0, the result's own coordinate as the offset. -/
theorem coord3_1 : (dims3 N A B R wf).start (ix3 r p q) idx 1 + (dims3 N A B R wf).batchCoord (ix3 r p q) 1
      + (dims3 N A B R wf).offCoord (ix3 r p q) 1 = p.val := by
  have hm : ¬ (1 : Fin 3) ∈ (dims3 N A B R wf).startIndexMap := (by decide : ¬ (1 : Fin 3) ∈ ([0] : List (Fin 3)))
  have hk : (1 : Fin 3) ∈ (dims3 N A B R wf).sKept :=
    (GatherDims.mem_sKept _ _).mpr ⟨(by decide : ¬ (1 : Fin 3) ∈ ([0] : List (Fin 3))), List.not_mem_nil⟩
  rw [GatherDims.batchCoord_eq_zero _ _ _ List.not_mem_nil, Nat.add_zero]
  unfold GatherDims.start GatherDims.offCoord
  rw [dif_neg hm, dif_pos hk, Nat.zero_add]
  rfl

/-- Last axis: start 0, the result's own coordinate as the offset. -/
theorem coord3_2 : (dims3 N A B R wf).start (ix3 r p q) idx 2 + (dims3 N A B R wf).batchCoord (ix3 r p q) 2
      + (dims3 N A B R wf).offCoord (ix3 r p q) 2 = q.val := by
  have hm : ¬ (2 : Fin 3) ∈ (dims3 N A B R wf).startIndexMap := (by decide : ¬ (2 : Fin 3) ∈ ([0] : List (Fin 3)))
  have hk : (2 : Fin 3) ∈ (dims3 N A B R wf).sKept :=
    (GatherDims.mem_sKept _ _).mpr ⟨(by decide : ¬ (2 : Fin 3) ∈ ([0] : List (Fin 3))), List.not_mem_nil⟩
  rw [GatherDims.batchCoord_eq_zero _ _ _ List.not_mem_nil, Nat.add_zero]
  unfold GatherDims.start GatherDims.offCoord
  rw [dif_neg hm, dif_pos hk, Nat.zero_add]
  rfl

/-- The whole-row gather from `[N, A, B]` read at `(r, p, q)`: row `clamp idx[r, 0]` of the operand, at `(p, q)`. -/
theorem gather_rows3_apply (hN : 0 < N) (x : (⟨3, ![N, A, B]⟩ : Shape).Idx → α) :
    Host.gather (dims3 N A B R wf) x idx (ix3 r p q)
      = x (ix3 (⟨min (idx (ix2 r (0 : Fin 1))).toInt.toNat (N - 1), by omega⟩ : Fin N) p q) := by
  unfold Host.gather
  congr 1
  funext a
  refine Fin.ext ?_
  match a with
  | ⟨0, _⟩ => exact coord3_0 wf idx r p q
  | ⟨1, _⟩ => exact coord3_1 wf idx r p q
  | ⟨2, _⟩ => exact coord3_2 wf idx r p q

end Rank3

/-! ## Rank-2 operand -/

/-- The dimension numbers of a whole-row gather from `[N, A]` at `[R, 1]` start indices into `[R, A]`. -/
abbrev dims2 (N A R : Nat)
    (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

section Rank2
variable {N A R w : Nat}
  (wf : GatherDims.WF ⟨2, ![N, A]⟩ ⟨2, ![R, 1]⟩ ⟨2, ![R, A]⟩ [1] [0] [] [0] [] 1 ![1, A])
  (idx : IVec ⟨2, ![R, 1]⟩ w) (r : Fin R) (p : Fin A)

/-- Leading axis: the clamped start index, no offset. -/
theorem coord2_0 : (dims2 N A R wf).start (ix2 r p) idx 0 + (dims2 N A R wf).batchCoord (ix2 r p) 0
      + (dims2 N A R wf).offCoord (ix2 r p) 0 = min (idx (ix2 r (0 : Fin 1))).toInt.toNat (N - 1) := by
  have hm : (0 : Fin 2) ∈ (dims2 N A R wf).startIndexMap := List.mem_singleton.mpr rfl
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos hm]
  have hsi : (dims2 N A R wf).siIdx (ix2 r p) ⟨List.idxOf (0 : Fin 2) (dims2 N A R wf).startIndexMap,
      List.idxOf_lt_length_iff.2 hm⟩ = ix2 r (0 : Fin 1) := by
    funext b; refine Fin.ext ?_
    match b with
    | ⟨0, _⟩ => rfl
    | ⟨1, _⟩ => rfl
  rw [hsi]
  rfl

/-- Last axis: start 0, the result's own coordinate as the offset. -/
theorem coord2_1 : (dims2 N A R wf).start (ix2 r p) idx 1 + (dims2 N A R wf).batchCoord (ix2 r p) 1
      + (dims2 N A R wf).offCoord (ix2 r p) 1 = p.val := by
  have hm : ¬ (1 : Fin 2) ∈ (dims2 N A R wf).startIndexMap := (by decide : ¬ (1 : Fin 2) ∈ ([0] : List (Fin 2)))
  have hk : (1 : Fin 2) ∈ (dims2 N A R wf).sKept :=
    (GatherDims.mem_sKept _ _).mpr ⟨(by decide : ¬ (1 : Fin 2) ∈ ([0] : List (Fin 2))), List.not_mem_nil⟩
  rw [GatherDims.batchCoord_eq_zero _ _ _ List.not_mem_nil, Nat.add_zero]
  unfold GatherDims.start GatherDims.offCoord
  rw [dif_neg hm, dif_pos hk, Nat.zero_add]
  rfl

/-- The whole-row gather from `[N, A]` read at `(r, p)`: row `clamp idx[r, 0]` of the operand, at `p`. -/
theorem gather_rows2_apply (hN : 0 < N) (x : (⟨2, ![N, A]⟩ : Shape).Idx → α) :
    Host.gather (dims2 N A R wf) x idx (ix2 r p)
      = x (ix2 (⟨min (idx (ix2 r (0 : Fin 1))).toInt.toNat (N - 1), by omega⟩ : Fin N) p) := by
  unfold Host.gather
  congr 1
  funext a
  refine Fin.ext ?_
  match a with
  | ⟨0, _⟩ => exact coord2_0 wf idx r p
  | ⟨1, _⟩ => exact coord2_1 wf idx r p

end Rank2

end Idealize.ShloMosaic.RowGather

end
-- ==== Proof.ReferenceValue.lean ====
/-
  The reference's second result, read entry by entry, is the routed two-layer offset formula.

  The reference gathers each sample's expert out of the weight and bias blocks with host gathers whose start index is
  the sample's selector, first normalised (a negative index has the axis length added) and then clamped into range.
  Under the precondition the selector already lies in [0, 12), so normalising and clamping return it unchanged and each
  gather reads row `sel b`. The two batched contractions are sums over the shared last axis, the bias and mask
  broadcasts repeat an entry along the token and feature axes, and the host's tanh is the extended reals' tanh.
  The embedded tokens and the mask column are left as the arrays the earlier operations produce: both programs compute
  them by the same operations, so they are never opened.
-/
import proofs.«412413_j51745765982421_2_alg».proof.Proof.ReferenceRead
import proofs.«412413_j51745765982421_2_alg».proof.Proof.Spec
import proofs.«412413_j51745765982421_2_alg».proof.Proof.TimeRange
import proofs.«412413_j51745765982421_2_alg».proof.Proof.LibGather

set_option maxRecDepth 16384

noncomputable section

namespace Cert.ReferenceIdeal.Routed

open Cert.ReferenceIdeal Cert.ReferenceIdeal.Gen Cert.ReferenceIdeal.PRead
open Idealize.ShloMosaic Idealize.ShloMosaic.ValueIdx

/-! ## The indices the generated read lemmas compose, as coordinate triples -/

theorem lidx_out (b : Fin 64) (l : Fin 512) (j k : Fin 768) : lidx_main_v33 (ix3 b l j) k = ix3 b l k :=
  funext fun a => Fin.ext (by match a with | ⟨0, _⟩ => rfl | ⟨1, _⟩ => rfl | ⟨2, _⟩ => rfl)
theorem ridx_out (b : Fin 64) (l : Fin 512) (j k : Fin 768) : ridx_main_v33 (ix3 b l j) k = ix3 b j k :=
  funext fun a => Fin.ext (by match a with | ⟨0, _⟩ => rfl | ⟨1, _⟩ => rfl | ⟨2, _⟩ => rfl)
theorem lidx_hid (b : Fin 64) (l : Fin 512) (k d : Fin 768) : lidx_main_v21 (ix3 b l k) d = ix3 b l d :=
  funext fun a => Fin.ext (by match a with | ⟨0, _⟩ => rfl | ⟨1, _⟩ => rfl | ⟨2, _⟩ => rfl)
theorem ridx_hid (b : Fin 64) (l : Fin 512) (k d : Fin 768) : ridx_main_v21 (ix3 b l k) d = ix3 b k d :=
  funext fun a => Fin.ext (by match a with | ⟨0, _⟩ => rfl | ⟨1, _⟩ => rfl | ⟨2, _⟩ => rfl)
theorem idx_bias1 (b : Fin 64) (l : Fin 512) (k : Fin 768) : idx_main_v29 (idx_main_v30 (ix3 b l k)) = ix2 b k :=
  funext fun a => Fin.ext (by match a with | ⟨0, _⟩ => rfl | ⟨1, _⟩ => rfl)
theorem idx_bias2 (b : Fin 64) (l : Fin 512) (j : Fin 768) : idx_main_v41 (idx_main_v42 (ix3 b l j)) = ix2 b j :=
  funext fun a => Fin.ext (by match a with | ⟨0, _⟩ => rfl | ⟨1, _⟩ => rfl)
theorem idx_mask (b : Fin 64) (l : Fin 512) (j : Fin 768) : idx_main_v48 (ix3 b l j) = ix3 b l (0 : Fin 1) :=
  funext fun a => Fin.ext (by match a with | ⟨0, _⟩ => rfl | ⟨1, _⟩ => rfl | ⟨2, _⟩ => rfl)

variable (x0 : IVec S64x512 32) (x1 : IVec S64 32) (x2 : IVec S1000 32) (x3 : FVec Ideal S30522x768 .f32)
  (x4 x6 : FVec Ideal S12x768x768 .f32) (x5 x7 : FVec Ideal S12x768 .f32)
  (h1 : ∀ i : S64.Idx, (x1 i).toNat < 12)

include h1

/-- The expert sample `b` is routed to. -/
def sel (b : Fin 64) : Fin 12 := ⟨(x1 (ix1 b)).toNat, h1 _⟩

/-- The start indices of this gather at (b, 0) are sample b's selector: normalising an in-range index changes nothing. -/
theorem start_w1 (b : Fin 64) : val_main_v12 (F := Ideal) x1 (ix2 b (0 : Fin 1)) = x1 (ix1 b) := by
  rw [val_main_v12_apply, val_main_v11_apply]
  have e : idx_main_v12 (ix2 b (0 : Fin 1)) = ix1 b := funext fun a => Fin.ext (by match a with | ⟨0, _⟩ => rfl)
  rw [e]
  exact Cert.TimeRange.normalise _ (h1 _)
/-- The start indices of this gather at (b, 0) are sample b's selector: normalising an in-range index changes nothing. -/
theorem start_w2 (b : Fin 64) : val_main_v19 (F := Ideal) x1 (ix2 b (0 : Fin 1)) = x1 (ix1 b) := by
  rw [val_main_v19_apply, val_main_v18_apply]
  have e : idx_main_v19 (ix2 b (0 : Fin 1)) = ix1 b := funext fun a => Fin.ext (by match a with | ⟨0, _⟩ => rfl)
  rw [e]
  exact Cert.TimeRange.normalise _ (h1 _)
/-- The start indices of this gather at (b, 0) are sample b's selector: normalising an in-range index changes nothing. -/
theorem start_b1 (b : Fin 64) : val_main_v27 (F := Ideal) x1 (ix2 b (0 : Fin 1)) = x1 (ix1 b) := by
  rw [val_main_v27_apply, val_main_v26_apply]
  have e : idx_main_v27 (ix2 b (0 : Fin 1)) = ix1 b := funext fun a => Fin.ext (by match a with | ⟨0, _⟩ => rfl)
  rw [e]
  exact Cert.TimeRange.normalise _ (h1 _)
/-- The start indices of this gather at (b, 0) are sample b's selector: normalising an in-range index changes nothing. -/
theorem start_b2 (b : Fin 64) : val_main_v39 (F := Ideal) x1 (ix2 b (0 : Fin 1)) = x1 (ix1 b) := by
  rw [val_main_v39_apply, val_main_v38_apply]
  have e : idx_main_v39 (ix2 b (0 : Fin 1)) = ix1 b := funext fun a => Fin.ext (by match a with | ⟨0, _⟩ => rfl)
  rw [e]
  exact Cert.TimeRange.normalise _ (h1 _)

/-- The gathered first-layer weights of sample b are expert `sel b`'s. -/
theorem w1_row (b : Fin 64) (k d : Fin 768) :
    val_main_v13 (F := Ideal) x1 x4 (ix3 b k d) = x4 (ix3 (sel x1 h1 b) k d) := by
  refine (RowGather.gather_rows3_apply (N := 12) (A := 768) (B := 768) (R := 64) (show GatherDims.WF ⟨3, ![12, 768, 768]⟩ ⟨2, ![64, 1]⟩ ⟨3, ![64, 768, 768]⟩ [1, 2] [0] [] [0] [] 1 ![1, 768, 768] from gather_S12x768x768_S64x1_S64x768x768_12_0_n_n_0_1_1768768.wf)
    (val_main_v12 (F := Ideal) x1) b k d (by decide) x4).trans ?_
  refine congrArg x4 (congrArg (fun e => ix3 e k d) (Fin.ext ?_))
  show min (val_main_v12 (F := Ideal) x1 (ix2 b (0 : Fin 1))).toInt.toNat (12 - 1) = (x1 (ix1 b)).toNat
  rw [start_w1 x1 h1]
  exact Cert.TimeRange.clamp _ (h1 _)

/-- The gathered second-layer weights of sample b are expert `sel b`'s. -/
theorem w2_row (b : Fin 64) (k d : Fin 768) :
    val_main_v20 (F := Ideal) x1 x6 (ix3 b k d) = x6 (ix3 (sel x1 h1 b) k d) := by
  refine (RowGather.gather_rows3_apply (N := 12) (A := 768) (B := 768) (R := 64) (show GatherDims.WF ⟨3, ![12, 768, 768]⟩ ⟨2, ![64, 1]⟩ ⟨3, ![64, 768, 768]⟩ [1, 2] [0] [] [0] [] 1 ![1, 768, 768] from gather_S12x768x768_S64x1_S64x768x768_12_0_n_n_0_1_1768768.wf)
    (val_main_v19 (F := Ideal) x1) b k d (by decide) x6).trans ?_
  refine congrArg x6 (congrArg (fun e => ix3 e k d) (Fin.ext ?_))
  show min (val_main_v19 (F := Ideal) x1 (ix2 b (0 : Fin 1))).toInt.toNat (12 - 1) = (x1 (ix1 b)).toNat
  rw [start_w2 x1 h1]
  exact Cert.TimeRange.clamp _ (h1 _)

/-- The gathered first-layer bias of sample b is expert `sel b`'s. -/
theorem b1_row (b : Fin 64) (k : Fin 768) :
    val_main_v28 (F := Ideal) x1 x5 (ix2 b k) = x5 (ix2 (sel x1 h1 b) k) := by
  refine (RowGather.gather_rows2_apply (N := 12) (A := 768) (R := 64) (show GatherDims.WF ⟨2, ![12, 768]⟩ ⟨2, ![64, 1]⟩ ⟨2, ![64, 768]⟩ [1] [0] [] [0] [] 1 ![1, 768] from gather_S12x768_S64x1_S64x768_1_0_n_n_0_1_1768.wf)
    (val_main_v27 (F := Ideal) x1) b k (by decide) x5).trans ?_
  refine congrArg x5 (congrArg (fun e => ix2 e k) (Fin.ext ?_))
  show min (val_main_v27 (F := Ideal) x1 (ix2 b (0 : Fin 1))).toInt.toNat (12 - 1) = (x1 (ix1 b)).toNat
  rw [start_b1 x1 h1]
  exact Cert.TimeRange.clamp _ (h1 _)

/-- The gathered second-layer bias of sample b is expert `sel b`'s. -/
theorem b2_row (b : Fin 64) (k : Fin 768) :
    val_main_v40 (F := Ideal) x1 x7 (ix2 b k) = x7 (ix2 (sel x1 h1 b) k) := by
  refine (RowGather.gather_rows2_apply (N := 12) (A := 768) (R := 64) (show GatherDims.WF ⟨2, ![12, 768]⟩ ⟨2, ![64, 1]⟩ ⟨2, ![64, 768]⟩ [1] [0] [] [0] [] 1 ![1, 768] from gather_S12x768_S64x1_S64x768_1_0_n_n_0_1_1768.wf)
    (val_main_v39 (F := Ideal) x1) b k (by decide) x7).trans ?_
  refine congrArg x7 (congrArg (fun e => ix2 e k) (Fin.ext ?_))
  show min (val_main_v39 (F := Ideal) x1 (ix2 b (0 : Fin 1))).toInt.toNat (12 - 1) = (x1 (ix1 b)).toNat
  rw [start_b2 x1 h1]
  exact Cert.TimeRange.clamp _ (h1 _)

/-- THE REFERENCE'S SECOND RESULT is the routed formula of its embedded tokens, its mask column, the raw weight and
    bias blocks, each sample under the expert its selector names. -/
theorem routed_eq : val_main_v50 (F := Ideal) x0 x1 x2 x3 x4 x5 x6 x7
    = Cert.Mlp.mlpOut (val_main_v6 (F := Ideal) x0 x3) (val_main_v47 (F := Ideal) x0 x2) x4 x6 x5 x7 (sel x1 h1) := by
  funext i
  obtain ⟨b, l, j, rfl⟩ : ∃ (b : Fin 64) (l : Fin 512) (j : Fin 768), i = ix3 b l j := ⟨i 0, i 1, i 2, eq_ix3 i⟩
  rw [Cert.Mlp.mlpOut_apply]
  unfold Cert.Mlp.mlpAt Cert.Mlp.hiddenAt
  rw [val_main_v50_apply, val_main_v49_apply, val_main_v43_apply, val_main_v33_apply, val_main_v42_apply,
    val_main_v41_apply, val_main_v48_apply]
  simp only [lidx_out, ridx_out, idx_bias2, idx_mask, val_main_v32_apply, val_main_v31_apply, val_main_v21_apply,
    val_main_v30_apply, val_main_v29_apply, lidx_hid, ridx_hid, idx_bias1, w1_row x1 x4 h1, w2_row x1 x6 h1,
    b1_row x1 x5 h1, b2_row x1 x7 h1, Ideal.hostUnary_tanh_def, Ideal.addf_def, Ideal.mulf_def]

end Cert.ReferenceIdeal.Routed

end
-- ==== Proof.Bridge.lean ====
/-
  The two programs feed the routed formula the same arrays.

  Before its launch the kernel's host code embeds the tokens, tests them against the vocabulary filter and narrows the
  expert weights' float format; the reference embeds the tokens and tests them by the very same operations, and uses
  the weights as given. Over the extended reals narrowing is the identity. The biases and the selector table reach the
  launch untouched. So the arrays the kernel's region finds are, one by one, the arrays the reference's formula is
  stated over, and the kernel's result array is the reference's second result as a function of the arguments.
-/
import proofs.«412413_j51745765982421_2_alg».proof.Proof.KernelValue
import proofs.«412413_j51745765982421_2_alg».proof.Proof.ReferenceValue
import proofs.«412413_j51745765982421_2_alg».proof.Proof.AdmitKernelIdeal
import Idealize.ShloMosaic.Lib.StableHlo.Run

set_option maxRecDepth 16384

noncomputable section

namespace Cert.Bridge

open Idealize.ShloMosaic Idealize.ShloMosaic.TcCoe Idealize.SL.Sem Idealize.ShloMosaic.StableHlo
open Idealize.ShloMosaic.ValueIdx

/-- The routed formula respects equality of each of its arguments. -/
theorem mlpOut_congr {X X' : Cert.Mlp.SAct.Idx → EReal} {M M' : Cert.Mlp.SMask.Idx → EReal}
    {W1 W1' W2 W2' : Cert.Mlp.SWeight.Idx → EReal} {B1 B1' B2 B2' : Cert.Mlp.SBias.Idx → EReal} {e e' : Fin 64 → Fin 12}
    (hX : X = X') (hM : M = M') (h1 : W1 = W1') (h2 : W2 = W2') (h3 : B1 = B1') (h4 : B2 = B2') (he : e = e') :
    Cert.Mlp.mlpOut X M W1 W2 B1 B2 e = Cert.Mlp.mlpOut X' M' W1' W2' B1' B2' e' := by
  subst hX hM h1 h2 h3 h4 he; rfl

variable (m : (ℓ : Loc Cert.KernelIdeal.nD Cert.KernelIdeal.τ Cert.KernelIdeal.sig) → Buf (Elt Ideal) ℓ) (c : Dev Cert.KernelIdeal.nD)

/-- The kernel's arguments as launched, at the reference's literal types. -/
abbrev ids : IVec Cert.ReferenceIdeal.S64x512 32 := m ((c.tc : Thread Cert.KernelIdeal.nD Cert.KernelIdeal.τ).loc Cert.KernelIdeal.main_arg0)
abbrev sels : IVec Cert.ReferenceIdeal.S64 32 := m ((c.tc : Thread Cert.KernelIdeal.nD Cert.KernelIdeal.τ).loc Cert.KernelIdeal.main_arg1)
abbrev filt : IVec Cert.ReferenceIdeal.S1000 32 := m ((c.tc : Thread Cert.KernelIdeal.nD Cert.KernelIdeal.τ).loc Cert.KernelIdeal.main_arg2)
abbrev table : FVec Ideal Cert.ReferenceIdeal.S30522x768 .f32 := m ((c.tc : Thread Cert.KernelIdeal.nD Cert.KernelIdeal.τ).loc Cert.KernelIdeal.main_arg3)
abbrev wt1 : FVec Ideal Cert.ReferenceIdeal.S12x768x768 .f32 := m ((c.tc : Thread Cert.KernelIdeal.nD Cert.KernelIdeal.τ).loc Cert.KernelIdeal.main_arg4)
abbrev bs1 : FVec Ideal Cert.ReferenceIdeal.S12x768 .f32 := m ((c.tc : Thread Cert.KernelIdeal.nD Cert.KernelIdeal.τ).loc Cert.KernelIdeal.main_arg5)
abbrev wt2 : FVec Ideal Cert.ReferenceIdeal.S12x768x768 .f32 := m ((c.tc : Thread Cert.KernelIdeal.nD Cert.KernelIdeal.τ).loc Cert.KernelIdeal.main_arg6)
abbrev bs2 : FVec Ideal Cert.ReferenceIdeal.S12x768 .f32 := m ((c.tc : Thread Cert.KernelIdeal.nD Cert.KernelIdeal.τ).loc Cert.KernelIdeal.main_arg7)

/-- The embedded tokens the kernel's region finds are the reference's. -/
theorem act_eq : (Cert.KernelIdeal.Out.actArr m c : Cert.Mlp.SAct.Idx → EReal)
    = Cert.ReferenceIdeal.PRead.val_main_v6 (F := Ideal) (ids m c) (table m c) := by
  show (Cert.KernelIdeal.Gen.V m c Cert.KernelIdeal.main_v6 : Cert.Mlp.SAct.Idx → EReal) = _
  dsimp only [Cert.KernelIdeal.Gen.V]
  simp only [Cert.KernelIdeal.Gen.hostOps0, Cert.KernelIdeal.Gen.hostOps0_1, Cert.KernelIdeal.Gen.hostOps0_2, List.flatten_cons, List.flatten_nil,
    List.append_nil, List.cons_append, List.nil_append]
  after_results
  rfl

/-- The mask column the kernel's region finds is the reference's. -/
theorem mask_eq : (Cert.KernelIdeal.Out.maskArr m c : Cert.Mlp.SMask.Idx → EReal)
    = Cert.ReferenceIdeal.PRead.val_main_v47 (F := Ideal) (ids m c) (filt m c) := by
  show (Cert.KernelIdeal.Gen.V m c Cert.KernelIdeal.main_v10 : Cert.Mlp.SMask.Idx → EReal) = _
  dsimp only [Cert.KernelIdeal.Gen.V]
  simp only [Cert.KernelIdeal.Gen.hostOps0, Cert.KernelIdeal.Gen.hostOps0_1, Cert.KernelIdeal.Gen.hostOps0_2, List.flatten_cons, List.flatten_nil,
    List.append_nil, List.cons_append, List.nil_append]
  after_results
  (try simp only [TRef.ofBuf, TRef.toBuf, cast_eq])
  rfl

/-- Narrowed to the shorter float format, the first-layer weights are, over the extended reals, the weights given. -/
theorem w1_eq : (Cert.KernelIdeal.Out.w1Arr m c : Cert.Mlp.SWeight.Idx → EReal) = wt1 m c := by
  show (Cert.KernelIdeal.Gen.V m c Cert.KernelIdeal.main_v11 : Cert.Mlp.SWeight.Idx → EReal) = _
  dsimp only [Cert.KernelIdeal.Gen.V]
  simp only [Cert.KernelIdeal.Gen.hostOps0, Cert.KernelIdeal.Gen.hostOps0_1, Cert.KernelIdeal.Gen.hostOps0_2, List.flatten_cons, List.flatten_nil,
    List.append_nil, List.cons_append, List.nil_append]
  after_results
  rfl

/-- The same for the second-layer weights. -/
theorem w2_eq : (Cert.KernelIdeal.Out.w2Arr m c : Cert.Mlp.SWeight.Idx → EReal) = wt2 m c := by
  show (Cert.KernelIdeal.Gen.V m c Cert.KernelIdeal.main_v12 : Cert.Mlp.SWeight.Idx → EReal) = _
  dsimp only [Cert.KernelIdeal.Gen.V]
  simp only [Cert.KernelIdeal.Gen.hostOps0, Cert.KernelIdeal.Gen.hostOps0_1, Cert.KernelIdeal.Gen.hostOps0_2, List.flatten_cons, List.flatten_nil,
    List.append_nil, List.cons_append, List.nil_append]
  after_results
  rfl

/-- No host operation writes the biases. -/
theorem b1_eq : (Cert.KernelIdeal.Out.b1Arr m c : Cert.Mlp.SBias.Idx → EReal) = bs1 m c := Cert.KernelIdeal.Gen.V_main_arg5 m c
theorem b2_eq : (Cert.KernelIdeal.Out.b2Arr m c : Cert.Mlp.SBias.Idx → EReal) = bs2 m c := Cert.KernelIdeal.Gen.V_main_arg7 m c

/-- The two routings agree: the kernel's table is the selector vector as launched. -/
theorem sel_eq (he : ∀ i : Cert.KernelIdeal.S64.Idx, ((Cert.KernelIdeal.Gen.tbl m 0 : Cert.KernelIdeal.S64.Idx → BitVec 32) i).toNat < 12)
    (h1 : ∀ i : Cert.ReferenceIdeal.S64.Idx, ((sels m 0) i).toNat < 12) :
    Cert.KernelIdeal.Out.sel m he = Cert.ReferenceIdeal.Routed.sel (sels m 0) h1 := by
  funext b
  refine Fin.ext ?_
  show ((Cert.KernelIdeal.Gen.tbl m 0 : Cert.KernelIdeal.S64.Idx → BitVec 32) (ix1 b)).toNat = ((sels m 0) (ix1 b)).toNat
  exact congrArg (fun f : Cert.KernelIdeal.S64.Idx → BitVec 32 => (f (ix1 b)).toNat) (Cert.KernelIdeal.Gen.V_main_arg1 m 0)

/-- THE KERNEL'S RESULT ARRAY is the reference's second result, as a function of the arguments. -/
theorem result_eq (hpre : Cert.Pre_KernelIdeal m) :
    (Cert.KernelIdeal.Out.result m (Cert.KernelIdeal.Admit.table_lt m hpre) c : Cert.Mlp.SAct.Idx → EReal)
      = Cert.ReferenceIdeal.PRead.val_main_v50 (F := Ideal) (ids m c) (sels m c) (filt m c) (table m c) (wt1 m c) (bs1 m c) (wt2 m c) (bs2 m c) := by
  obtain rfl : c = 0 := Subsingleton.elim _ _
  have h1 : ∀ i : Cert.ReferenceIdeal.S64.Idx, ((sels m 0) i).toNat < 12 :=
    fun i => Cert.TimeRange.expert_lt _ _ _ _ _ _ _ _ (hpre 0) i
  exact (mlpOut_congr (act_eq m 0) (mask_eq m 0) (w1_eq m 0) (w2_eq m 0) (b1_eq m 0) (b2_eq m 0)
      (sel_eq m (Cert.KernelIdeal.Admit.table_lt m hpre) h1)).trans
    (Cert.ReferenceIdeal.Routed.routed_eq (ids m 0) (sels m 0) (filt m 0) (table m 0) (wt1 m 0) (wt2 m 0) (bs1 m 0) (bs2 m 0) h1).symm

end Cert.Bridge

end
-- ==== Proof.lean ====
/-
  The certificate: a per-sample routed two-layer offset, fused into one kernel over the batch, against its plain reference.

  Sixty-four samples of 512 tokens are embedded by a table lookup; each sample b is routed by `timediff[b]` to one of
  twelve experts, a two-layer map  h = tanh(x W1ᵀ + b1),  offset = h W2ᵀ + b2;  the offset is masked by membership of the
  token in a vocabulary filter and added back to the embedding. The kernel keeps all twelve experts resident and picks
  the expert inside its body by a dynamic leading offset; the reference gathers each sample's expert on the host.

  Precondition. Beside finiteness of the float inputs, `0 ≤ timediff < 12` entrywise: outside it the reference itself
  indexes the expert axis out of range, and the kernel's dynamic offset would leave the resident blocks. Under it the
  body's assumed side condition holds at every grid point (Proof/AdmitKernel*.lean), which gives the two kernel frames.

  Value. The kernel's one store per grid point covers the sample's output block with the payload of its loads
  (Proof/KernelValue.lean: `stored`), which entry by entry is the routed formula `Cert.Mlp.mlpOut` (Proof/Spec.lean) of
  the arrays the region finds (`block_value`, over Proof/KernelPayload.lean); the sixty-four blocks tile the result
  (`covered`), so the result array is that formula (`final`). The reference's second result is the same formula of its
  own embedded tokens and mask column (Proof/ReferenceValue.lean: `routed_eq`), the gathers reading the routed expert's
  rows (Proof/LibGather.lean) because an in-range selector survives normalisation and clamping (Proof/TimeRange.lean).
  The two programs compute the embedded tokens and the mask by the same host operations, and narrowing the weights'
  float format is the identity over the extended reals (Proof/Bridge.lean). No law beyond reordering-free equality of
  the same sums is used, so finiteness of the inputs is never opened.

  The ideal pass rewrote nothing, so the idealization conjunct is trivial.
-/
import proofs.«412413_j51745765982421_2_alg».proof.Defs
import proofs.«412413_j51745765982421_2_alg».proof.Proof.Gen.Kernel
import proofs.«412413_j51745765982421_2_alg».proof.Proof.Gen.Kernel.Frame
import proofs.«412413_j51745765982421_2_alg».proof.Proof.Gen.KernelIdeal
import proofs.«412413_j51745765982421_2_alg».proof.Proof.Gen.KernelIdeal.Frame
import proofs.«412413_j51745765982421_2_alg».proof.Proof.Gen.ReferenceIdeal
import proofs.«412413_j51745765982421_2_alg».proof.Proof.Gen.Pre_finite_inputs
import proofs.«412413_j51745765982421_2_alg».proof.Proof.ReferenceRun
import proofs.«412413_j51745765982421_2_alg».proof.Proof.AdmitKernel
import proofs.«412413_j51745765982421_2_alg».proof.Proof.AdmitKernelIdeal
import proofs.«412413_j51745765982421_2_alg».proof.Proof.KernelValue
import proofs.«412413_j51745765982421_2_alg».proof.Proof.Bridge
import Idealize.ShloMosaic.Adequacy
import Idealize.ShloMosaic.Init

set_option maxRecDepth 16384

noncomputable section

namespace Cert.Proof

open Idealize.ShloMosaic Idealize.SL.Sem

/-- The printed kernel runs and keeps its arguments: its generated frame, under the side conditions the precondition gives. -/
theorem frame_kernel : Cert.frame_Kernel := fun m ρ h =>
  Cert.Kernel.Gen.frame m ρ (Cert.Kernel.Admit.ok m) (Cert.Kernel.Admit.hyps m h _)

/-- The same for the idealized kernel. -/
theorem frame_kernelIdeal : Cert.frame_KernelIdeal := fun m ρ h =>
  Cert.KernelIdeal.Gen.frame m ρ (Cert.KernelIdeal.Admit.ok m) (Cert.KernelIdeal.Admit.hyps m h _)

/-- The reference is a straight line of host operations: its run, with the two results dropped. -/
theorem frame_reference : Cert.frame_ReferenceIdeal := fun m ρ _ =>
  (θ_run Cert.ReferenceIdeal.defs _ _).mono (fun _ h c => (h c).2.2) (Cert.ReferenceIdeal.PValue.run (F := Ideal) m ρ)

/-- Over the extended reals both programs end with the embedded tokens and with the routed formula of the arguments. -/
theorem algebraic : Cert.algebraic_KernelIdeal_ReferenceIdeal := by
  intro m ρ m' ρ' hpre hagree
  have hO := Cert.KernelIdeal.Admit.ok m
  have hH := Cert.KernelIdeal.Admit.hyps m hpre hO
  refine ⟨fun c => Cert.KernelIdeal.Out.actArr m c,
    fun c => Cert.KernelIdeal.Out.result m (Cert.KernelIdeal.Admit.table_lt m hpre) c,
    Cert.KernelIdeal.Out.run m ρ hO hH (Cert.KernelIdeal.Admit.table_lt m hpre), ?_⟩
  refine (θ_run Cert.ReferenceIdeal.defs _ _).mono (fun _ h c => ?_) (Cert.ReferenceIdeal.PValue.run (F := Ideal) m' ρ')
  obtain ⟨h6, h50, hrest⟩ := h c
  obtain ⟨g0, g1, g2, g3, g4, g5, g6, g7⟩ := hagree c
  refine ⟨h6.trans ?_, h50.trans ?_, hrest⟩
  · rw [g0, g3]
    exact (Cert.Bridge.act_eq m c).symm
  · rw [g0, g1, g2, g3, g4, g5, g6, g7]
    exact (Cert.Bridge.result_eq m c hpre).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
